-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S1x65536x512 : S_.BroadcastsInDim S1x65536x512 (![] : Fin 0 → Fin S1x65536x512.rank)
  reducesTo_S1x65536x512_S_d0_1_2 : S1x65536x512.ReducesTo [0, 1, 2] S_
  bcast_S_S1536x320 : S_.BroadcastsInDim S1536x320 (![] : Fin 0 → Fin S1536x320.rank)
  reducesTo_S1536x320_S_d0_1 : S1536x320.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x1024 .f32) (main_arg12 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1536x512 .f32) (main_arg5 : FVec F S1536 .f32) (main_arg6 : FVec F S1536 .f32) (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) (main_v13 : IVec S_ 1) (main_v16 : IVec S1536x320 1) : IVec S_ 1 :=
  let main_c_5 : IVec S_ 1 := constantI S_ 1 1#1
  let main_v17 : IVec S_ 1 := (fun x v => Host.reduce IntOp.andi x v reducesTo_S1536x320_S_d0_1 h_S_) main_v16 main_c_5
  let main_v18 : IVec S_ 1 := andi main_v13 main_v17
  let main_v19 : FVec F S1536x512 .f32 := Host.absf main_arg4
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x256 .f32) (main_arg1 : FVec F S65536x64 .f32) (main_arg2 : FVec F S1x65536x512 .f32) (main_arg3 : FVec F S1536x320 .f32) (main_arg4 : FVec F S1536x512 .f32) (main_arg5 : FVec F S1536 .f32) (main_arg6 : FVec F S1536 .f32) (main_arg7 : FVec F S1024x512 .f32) (main_arg8 : FVec F S1024 .f32) (main_arg9 : FVec F S1024x1024 .f32) (main_arg10 : FVec F S1024 .f32) (main_arg11 : FVec F S1x1024 .f32) (main_arg12 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S1x65536x512 .f32 := Host.absf main_arg2
  let main_cst_2 : FVec F S_ .f32 := constant S_ .f32 0x7F800000#32
  let main_v10 : FVec F S1x65536x512 .f32 := broadcastInDim S1x65536x512 ![] bcast_S_S1x65536x512 main_cst_2
  let main_v11 : IVec S1x65536x512 1 := cmpf .olt main_v9 main_v10
  let main_c_3 : IVec S_ 1 := constantI S_ 1 1#1
  let main_v12 : IVec S_ 1 := (fun x v => Host.reduce IntOp.andi x v reducesTo_S1x65536x512_S_d0_1_2 h_S_) main_v11 main_c_3
  let main_v13 : IVec S_ 1 := andi main_v8 main_v12
  let main_v14 : FVec F S1536x320 .f32 := Host.absf main_arg3
  let main_cst_4 : FVec F S_ .f32 := constant S_ .f32 0x7F800000#32
  let main_v15 : FVec F S1536x320 .f32 := broadcastInDim S1536x320 ![] bcast_S_S1536x320 main_cst_4
  let main_v16 : IVec S1536x320 1 := cmpf .olt main_v14 main_v15
  fn_part1 (F := F) main_arg4 main_arg5 main_arg6 main_arg7 main_arg8 main_arg9 main_arg10 main_arg11 main_arg12 main_v13 main_v16
-- ==== Kernel.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S65536x512 : Shape := ⟨2, ![65536, 512]⟩
abbrev S320x1536 : Shape := ⟨2, ![320, 1536]⟩
abbrev S256x1536 : Shape := ⟨2, ![256, 1536]⟩
abbrev S64x1536 : Shape := ⟨2, ![64, 1536]⟩
abbrev S512x1536 : Shape := ⟨2, ![512, 1536]⟩
abbrev S512x1024 : Shape := ⟨2, ![512, 1024]⟩
abbrev S1024x1 : Shape := ⟨2, ![1024, 1]⟩
abbrev S1x1536 : Shape := ⟨2, ![1, 1536]⟩
abbrev S1x1 : Shape := ⟨2, ![1, 1]⟩
abbrev S65536x1 : Shape := ⟨2, ![65536, 1]⟩
abbrev S512x256 : Shape := ⟨2, ![512, 256]⟩
abbrev S512x64 : Shape := ⟨2, ![512, 64]⟩
abbrev S512x512 : Shape := ⟨2, ![512, 512]⟩
abbrev S512x1 : Shape := ⟨2, ![512, 1]⟩

abbrev nBuf : Space → Nat
  | .hbm => 34
  | .vmem => 21
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S1x65536x512, .f32⟩
  | .hbm, ⟨3, _⟩ => ⟨S1536x320, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S65536x512, .f32⟩
  | .hbm, ⟨14, _⟩ => ⟨S320x1536, .f32⟩
  | .hbm, ⟨15, _⟩ => ⟨S320x1536, .bf16⟩
  | .hbm, ⟨16, _⟩ => ⟨S256x1536, .bf16⟩
  | .hbm, ⟨17, _⟩ => ⟨S64x1536, .bf16⟩
  | .hbm, ⟨18, _⟩ => ⟨S512x1536, .f32⟩
  | .hbm, ⟨19, _⟩ => ⟨S512x1536, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1024x1, .f32⟩
  | .hbm, ⟨25, _⟩ => ⟨S1024x1, .bf16⟩
  | .hbm, ⟨26, _⟩ => ⟨S1x1536, .f32⟩
  | .hbm, ⟨27, _⟩ => ⟨S1x1536, .f32⟩
  | .hbm, ⟨28, _⟩ => ⟨S1x1024, .f32⟩
  | .hbm, ⟨29, _⟩ => ⟨S1x1024, .f32⟩
  | .hbm, ⟨30, _⟩ => ⟨S1x1, .f32⟩
  | .hbm, ⟨31, _⟩ => ⟨S65536x1, .f32⟩
  | .hbm, ⟨32, _⟩ => ⟨S65536x512, .f32⟩
  | .hbm, ⟨33, _⟩ => ⟨S1x65536x512, .f32⟩
  | .local _ .vmem, ⟨0, _⟩ => ⟨S512x256, .f32⟩
  | .local _ .vmem, ⟨1, _⟩ => ⟨S512x256, .f32⟩
  | .local _ .vmem, ⟨2, _⟩ => ⟨S512x64, .f32⟩
  | .local _ .vmem, ⟨3, _⟩ => ⟨S512x64, .f32⟩
  | .local _ .vmem, ⟨4, _⟩ => ⟨S512x512, .f32⟩
  | .local _ .vmem, ⟨5, _⟩ => ⟨S512x512, .f32⟩
  | .local _ .vmem, ⟨6, _⟩ => ⟨S256x1536, .bf16⟩
  | .local _ .vmem, ⟨7, _⟩ => ⟨S64x1536, .bf16⟩
  | .local _ .vmem, ⟨8, _⟩ => ⟨S512x1536, .bf16⟩
  | .local _ .vmem, ⟨9, _⟩ => ⟨S1x1536, .f32⟩
  | .local _ .vmem, ⟨10, _⟩ => ⟨S1x1536, .f32⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1, .bf16⟩
  | .local _ .vmem, ⟨16, _⟩ => ⟨S1x1, .f32⟩
  | .local _ .vmem, ⟨17, _⟩ => ⟨S512x1, .f32⟩
  | .local _ .vmem, ⟨18, _⟩ => ⟨S512x1, .f32⟩
  | .local _ .vmem, ⟨19, _⟩ => ⟨S512x512, .f32⟩
  | .local _ .vmem, ⟨20, _⟩ => ⟨S512x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S1x65536x512_S65536x512 : S1x65536x512.ShapeCasts S65536x512
  transposes_S1536x320_S320x1536_1_0 : S1536x320.Transposes [1, 0] S320x1536
  bitsLt_bf16_f32 : FTy.bits .bf16 < FTy.bits .f32
  slices_S320x1536_S256x1536_0_0 : S320x1536.Slices ![0, 0] S256x1536
  slices_S320x1536_S64x1536_256_0 : S320x1536.Slices ![256, 0] S64x1536
  transposes_S1536x512_S512x1536_1_0 : S1536x512.Transposes [1, 0] S512x1536
  transposes_S1024x512_S512x1024_1_0 : S1024x512.Transposes [1, 0] S512x1024
  transposes_S1024x1024_S1024x1024_1_0 : S1024x1024.Transposes [1, 0] S1024x1024
  transposes_S1x1024_S1024x1_1_0 : S1x1024.Transposes [1, 0] S1024x1
  shapeCasts_S1536_S1x1536 : S1536.ShapeCasts S1x1536
  shapeCasts_S1024_S1x1024 : S1024.ShapeCasts S1x1024
  shapeCasts_S1_S1x1 : S1.ShapeCasts S1x1
  inb_S512x256_S512x256_0_0 : ∀ a, (![0, 0] : Fin 2 → Nat) a + S512x256.size a ≤ S512x256.size a
  h_S512x256 : 0 < S512x256.numel
  inb_S512x64_S512x64_0_0 : ∀ a, (![0, 0] : Fin 2 → Nat) a + S512x64.size a ≤ S512x64.size a
  h_S512x64 : 0 < S512x64.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  bcast_S65536x512_S1x65536x512_1_2 : S65536x512.BroadcastsInDim S1x65536x512 (![1, 2] : Fin 2 → Fin S1x65536x512.rank)
  dot_S512x256_S256x1536_S512x1536_1_0_0_1_n_n_wf : DotDims.WF S512x256 S256x1536 S512x1536 [1] [0] [0] [1] [] []
  dot_S512x64_S64x1536_S512x1536_1_0_0_1_n_n_wf : DotDims.WF S512x64 S64x1536 S512x1536 [1] [0] [0] [1] [] []
  dot_S512x512_S512x1536_S512x1536_1_0_0_1_n_n_wf : DotDims.WF S512x512 S512x1536 S512x1536 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S65536x64.size a
  hwx0_1 : ∀ i : grid0.Coords, EltTy.bits .f32 = 32 ∨ (Rect.block (s := S65536x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S65536x512.size a
  hwx0_2 : ∀ i : grid0.Coords, EltTy.bits .f32 = 32 ∨ (Rect.block (s := S65536x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1536.size a ≤ S256x1536.size a
  hwx0_3 : ∀ i : grid0.Coords, EltTy.bits .bf16 = 32 ∨ (Rect.block (s := S256x1536) S256x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1536.size a ≤ S64x1536.size a
  hwx0_4 : ∀ i : grid0.Coords, EltTy.bits .bf16 = 32 ∨ (Rect.block (s := S64x1536) S64x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S512x1024.size a
  hwx0_8 : ∀ i : grid0.Coords, EltTy.bits .bf16 = 32 ∨ (Rect.block (s := S512x1024) S512x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S1024x1.size a
  hwx0_12 : ∀ i : grid0.Coords, EltTy.bits .bf16 = 32 ∨ (Rect.block (s := S1024x1) S1024x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S65536x1.size a
  hwx0_14 : ∀ i : grid0.Coords, EltTy.bits .f32 = 32 ∨ (Rect.block (s := S65536x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S65536x512.size a
  hwx0_15 : ∀ i : grid0.Coords, EltTy.bits .f32 = 32 ∨ (Rect.block (s := S65536x512) S512x512.size (cc0_transform_15 i) (hinb0_15 i)).WholeWords (EltTy.packing .f32)

variable [Facts₀]

def dot_S512x256_S256x1536_S512x1536_1_0_0_1_n_n : DotDims S512x256 S256x1536 S512x1536 where
  lhsContracting := [1]
  rhsContracting := [0]
  lhsNonContracting := [0]
  rhsNonContracting := [1]
  lhsBatch := []
  rhsBatch := []
  wf := dot_S512x256_S256x1536_S512x1536_1_0_0_1_n_n_wf
def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1024x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18_0) S512x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_1) S512x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x64 : Shape := ⟨2, ![65536, 64]⟩
abbrev S1x65536x512 : Shape := ⟨3, ![1, 65536, 512]⟩
abbrev S1536x320 : Shape := ⟨2, ![1536, 320]⟩
abbrev S1536x512 : Shape := ⟨2, ![1536, 512]⟩
abbrev S1536 : Shape := ⟨1, ![1536]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S65536x320 : Shape := ⟨2, ![65536, 320]⟩
abbrev S65536x512 : Shape := ⟨2, ![65536, 512]⟩
abbrev S320x1536 : Shape := ⟨2, ![320, 1536]⟩
abbrev S65536x1536 : Shape := ⟨2, ![65536, 1536]⟩
abbrev S1x1536 : Shape := ⟨2, ![1, 1536]⟩
abbrev S512x1536 : Shape := ⟨2, ![512, 1536]⟩
abbrev S_ : Shape := ⟨0, ![]⟩
abbrev S512x1024 : Shape := ⟨2, ![512, 1024]⟩
abbrev S65536x1024 : Shape := ⟨2, ![65536, 1024]⟩
abbrev S1024x1 : Shape := ⟨2, ![1024, 1]⟩
abbrev S65536x1 : Shape := ⟨2, ![65536, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x64, .f32⟩
  | .hbm, ⟨2, _⟩ => ⟨S1x65536x512, .f32⟩
  | .hbm, ⟨3, _⟩ => ⟨S1536x320, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S1, .f32⟩
  | .hbm, ⟨13, _⟩ => ⟨S65536x320, .f32⟩
  | .hbm, ⟨14, _⟩ => ⟨S65536x512, .f32⟩
  | .hbm, ⟨15, _⟩ => ⟨S320x1536, .f32⟩
  | .hbm, ⟨16, _⟩ => ⟨S65536x1536, .f32⟩
  | .hbm, ⟨17, _⟩ => ⟨S1x1536, .f32⟩
  | .hbm, ⟨18, _⟩ => ⟨S65536x1536, .f32⟩
  | .hbm, ⟨19, _⟩ => ⟨S65536x1536, .f32⟩
  | .hbm, ⟨20, _⟩ => ⟨S512x1536, .f32⟩
  | .hbm, ⟨21, _⟩ => ⟨S65536x1536, .f32⟩
  | .hbm, ⟨22, _⟩ => ⟨S1x1536, .f32⟩
  | .hbm, ⟨23, _⟩ => ⟨S65536x1536, .f32⟩
  | .hbm, ⟨24, _⟩ => ⟨S65536x1536, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S_, .f32⟩
  | .hbm, ⟨44, _⟩ => ⟨S65536x512, .f32⟩
  | .hbm, ⟨45, _⟩ => ⟨S65536x512, .f32⟩
  | .hbm, ⟨46, _⟩ => ⟨S_, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S512x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S1024x1024, .f32⟩
  | .hbm, ⟨67, _⟩ => ⟨S65536x1024, .f32⟩
  | .hbm, ⟨68, _⟩ => ⟨S1x1024, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S1024x1, .f32⟩
  | .hbm, ⟨75, _⟩ => ⟨S65536x1, .f32⟩
  | .hbm, ⟨76, _⟩ => ⟨S1x1, .f32⟩
  | .hbm, ⟨77, _⟩ => ⟨S65536x1, .f32⟩
  | .hbm, ⟨78, _⟩ => ⟨S65536x1, .f32⟩
  | .hbm, ⟨79, _⟩ => ⟨S1x65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  concatenates_S65536x256_S65536x64_S65536x320_d1 : Shape.Concatenates [S65536x256, S65536x64] S65536x320 1
  shapeCasts_S1x65536x512_S65536x512 : S1x65536x512.ShapeCasts S65536x512
  transposes_S1536x320_S320x1536_1_0 : S1536x320.Transposes [1, 0] S320x1536
  bcast_S1536_S1x1536_1 : S1536.BroadcastsInDim S1x1536 (![1] : Fin 1 → Fin S1x1536.rank)
  bcast_S1x1536_S65536x1536_0_1 : S1x1536.BroadcastsInDim S65536x1536 (![0, 1] : Fin 2 → Fin S65536x1536.rank)
  transposes_S1536x512_S512x1536_1_0 : S1536x512.Transposes [1, 0] S512x1536
  slices_S65536x1536_S65536x512_0_0 : S65536x1536.Slices ![0, 0] S65536x512
  slices_S65536x1536_S65536x512_0_512 : S65536x1536.Slices ![0, 512] S65536x512
  slices_S65536x1536_S65536x512_0_1024 : S65536x1536.Slices ![0, 1024] S65536x512
  bcast_S_S65536x512 : S_.BroadcastsInDim S65536x512 (![] : Fin 0 → Fin S65536x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S1024x1024_S1024x1024_1_0 : S1024x1024.Transposes [1, 0] S1024x1024
  transposes_S1x1024_S1024x1_1_0 : S1x1024.Transposes [1, 0] S1024x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x512_S1x65536x512_1_2 : S65536x512.BroadcastsInDim S1x65536x512 (![1, 2] : Fin 2 → Fin S1x65536x512.rank)
  dot_S65536x320_S320x1536_S65536x1536_1_0_0_1_n_n_wf : DotDims.WF S65536x320 S320x1536 S65536x1536 [1] [0] [0] [1] [] []
  dot_S65536x512_S512x1536_S65536x1536_1_0_0_1_n_n_wf : DotDims.WF S65536x512 S512x1536 S65536x1536 [1] [0] [0] [1] [] []
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x320_S320x1536_S65536x1536_1_0_0_1_n_n : DotDims S65536x320 S320x1536 S65536x1536 where
  lhsContracting := [1]
  rhsContracting := [0]
  lhsNonContracting := [0]
  rhsNonContracting := [1]
  lhsBatch := []
  rhsBatch := []
  wf := dot_S65536x320_S320x1536_S65536x1536_1_0_0_1_n_n_wf
def dot_S65536x512_S512x1536_S65536x1536_1_0_0_1_n_n : DotDims S65536x512 S512x1536 S65536x1536 where
  lhsContracting := [1]
  rhsContracting := [0]
  lhsNonContracting := [0]
  rhsNonContracting := [1]
  lhsBatch := []
  rhsBatch := []
  wf := dot_S65536x512_S512x1536_S65536x1536_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.Spec.lean ====
/-
  The network both programs compute, written row by row over the extended reals.

  One batch row consists of a state row `s` (256 entries), an action row `a` (64 entries) and a hidden row `h` (512
  entries). A single step of a gated recurrent cell produces the next hidden row, and three dense layers (the first two
  followed by a maximum with zero) produce one number from it:

    gateIn  c = (sum over q of s q * WS q c  +  sum over q of a q * WA q c) + bi c          (1536 columns)
    gateHid c =  sum over q of h q * WH q c + bh c                                           (1536 columns)
    reset  j  = logistic (gateIn j + gateHid j)
    update j  = logistic (gateIn (512 + j) + gateHid (512 + j))
    cand   j  = tanh (gateIn (1024 + j) + reset j * gateHid (1024 + j))
    hiddenNext j = (1 - update j) * cand j + update j * h j                                  (512 columns)
    layer1 j  = max (sum over q of hiddenNext q * W1 q j + d1 j) 0                           (1024 columns)
    layer2 j  = max (sum over q of layer1 q * W2 q j + d2 j) 0                               (1024 columns)
    qValue    = sum over q of layer2 q * W3 q + d3

  The input weight matrix acts on the state row joined with the action row; its product with the joined row is the sum
  of the products of its first 256 rows with the state row and its last 64 rows with the action row, which is how
  `gateIn` is written. Every sum is a finite sum in the extended reals, every product and sum the extended reals' own;
  `logistic x` is `1 / (1 + exp (-x))` with its limits at the infinities and `tanh` likewise.

  The second half of the file reads the rows and the weights off the argument arrays: row `i` of the state and action
  matrices, row `i` of the one slab of the hidden array, and the weight matrices TRANSPOSED (entry (q, c) of a weight
  function is entry (c, q) of the stored matrix), the input weights split at column 256. `hiddenArr` and `qArr` are
  the two result arrays as functions of the thirteen argument arrays.
-/
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- The number one, as the single-precision word both programs spell it with. -/
abbrev one : EReal := Ideal.ofBits .f32 0x3F800000#32
/-- The number zero, as the single-precision word both programs spell it with. -/
abbrev zero : EReal := Ideal.ofBits .f32 0x00000000#32

/-- The quotient `1 / (1 + exp (-x))` written with the word for one is the logistic function. -/
theorem logistic_eq (x : EReal) : Ideal.div one (one + Ideal.exp (-x)) = Ideal.logistic x := by
  unfold one
  rw [Ideal.ofBits_one_f32]
  rfl

/-! ## One batch row -/

/-- Column `j` of the reset gate's third of the 1536 gate columns. -/
def colR (j : Fin 512) : Fin 1536 := ⟨j.val, by omega⟩
/-- Column `j` of the update gate's third. -/
def colZ (j : Fin 512) : Fin 1536 := ⟨512 + j.val, by omega⟩
/-- Column `j` of the candidate's third. -/
def colN (j : Fin 512) : Fin 1536 := ⟨1024 + j.val, by omega⟩

section Row

variable (s : Fin 256 → EReal) (a : Fin 64 → EReal) (h : Fin 512 → EReal)
  (WS : Fin 256 → Fin 1536 → EReal) (WA : Fin 64 → Fin 1536 → EReal) (WH : Fin 512 → Fin 1536 → EReal)
  (bi bh : Fin 1536 → EReal)
  (W1 : Fin 512 → Fin 1024 → EReal) (d1 : Fin 1024 → EReal)
  (W2 : Fin 1024 → Fin 1024 → EReal) (d2 : Fin 1024 → EReal)
  (W3 : Fin 1024 → EReal) (d3 : EReal)

/-- The gates' pre-activation from the inputs: the state row and the action row each times its part of the input
    weights, plus the bias. -/
def gateIn (c : Fin 1536) : EReal := (∑ q : Fin 256, s q * WS q c + ∑ q : Fin 64, a q * WA q c) + bi c

/-- The gates' pre-activation from the hidden row. -/
def gateHid (c : Fin 1536) : EReal := ∑ q : Fin 512, h q * WH q c + bh c

/-- The reset gate. -/
def reset (j : Fin 512) : EReal := Ideal.logistic (gateIn s a WS WA bi (colR j) + gateHid h WH bh (colR j))

/-- The update gate. -/
def update (j : Fin 512) : EReal := Ideal.logistic (gateIn s a WS WA bi (colZ j) + gateHid h WH bh (colZ j))

/-- The candidate hidden value. -/
def cand (j : Fin 512) : EReal :=
  Ideal.tanh (gateIn s a WS WA bi (colN j) + reset s a h WS WA WH bi bh j * gateHid h WH bh (colN j))

/-- The next hidden row: the update gate mixes the candidate with the old hidden value. -/
def hiddenNext (j : Fin 512) : EReal :=
  (one - update s a h WS WA WH bi bh j) * cand s a h WS WA WH bi bh j + update s a h WS WA WH bi bh j * h j

/-- The first dense layer with its maximum with zero, over any 512-entry row `x`. -/
def layer1 (x : Fin 512 → EReal) (j : Fin 1024) : EReal := max (∑ q : Fin 512, x q * W1 q j + d1 j) zero

/-- The second dense layer with its maximum with zero, over any 1024-entry row `x`. -/
def layer2 (x : Fin 1024 → EReal) (j : Fin 1024) : EReal := max (∑ q : Fin 1024, x q * W2 q j + d2 j) zero

/-- The last dense layer, one number, over any 1024-entry row `x`. -/
def layer3 (x : Fin 1024 → EReal) : EReal := ∑ q : Fin 1024, x q * W3 q + d3

/-- The number the network gives for one batch row. -/
def qValue : EReal :=
  layer3 W3 d3 (layer2 W2 d2 (layer1 W1 d1 (hiddenNext s a h WS WA WH bi bh)))

end Row

/-! ## The rows and weights read off the argument arrays -/

section Arrays

variable (X0 : FVec Ideal ⟨2, ![65536, 256]⟩ .f32) (X1 : FVec Ideal ⟨2, ![65536, 64]⟩ .f32)
  (X2 : FVec Ideal ⟨3, ![1, 65536, 512]⟩ .f32) (X3 : FVec Ideal ⟨2, ![1536, 320]⟩ .f32)
  (X4 : FVec Ideal ⟨2, ![1536, 512]⟩ .f32) (X5 X6 : FVec Ideal ⟨1, ![1536]⟩ .f32)
  (X7 : FVec Ideal ⟨2, ![1024, 512]⟩ .f32) (X8 : FVec Ideal ⟨1, ![1024]⟩ .f32)
  (X9 : FVec Ideal ⟨2, ![1024, 1024]⟩ .f32) (X10 : FVec Ideal ⟨1, ![1024]⟩ .f32)
  (X11 : FVec Ideal ⟨2, ![1, 1024]⟩ .f32) (X12 : FVec Ideal ⟨1, ![1]⟩ .f32)

/-- Row `i` of the state matrix. -/
def stateRow (i : Fin 65536) : Fin 256 → EReal := fun q => X0 (ix2 i q)
/-- Row `i` of the action matrix. -/
def actionRow (i : Fin 65536) : Fin 64 → EReal := fun q => X1 (ix2 i q)
/-- Row `i` of the hidden array's one slab. -/
def hiddenRow (i : Fin 65536) : Fin 512 → EReal := fun q => X2 (ix3 (0 : Fin 1) i q)
/-- The input weights' first 256 columns, transposed. -/
def wInS : Fin 256 → Fin 1536 → EReal := fun q c => X3 (ix2 c (⟨q.val, by omega⟩ : Fin 320))
/-- The input weights' last 64 columns, transposed. -/
def wInA : Fin 64 → Fin 1536 → EReal := fun q c => X3 (ix2 c (⟨256 + q.val, by omega⟩ : Fin 320))
/-- The hidden weights, transposed. -/
def wHid : Fin 512 → Fin 1536 → EReal := fun q c => X4 (ix2 c q)
/-- The input bias. -/
def bIn : Fin 1536 → EReal := fun c => X5 (ix1 c)
/-- The hidden bias. -/
def bHid : Fin 1536 → EReal := fun c => X6 (ix1 c)
/-- The first layer's weights, transposed. -/
def w1 : Fin 512 → Fin 1024 → EReal := fun q j => X7 (ix2 j q)
/-- The first layer's bias. -/
def b1 : Fin 1024 → EReal := fun j => X8 (ix1 j)
/-- The second layer's weights, transposed. -/
def w2 : Fin 1024 → Fin 1024 → EReal := fun q j => X9 (ix2 j q)
/-- The second layer's bias. -/
def b2 : Fin 1024 → EReal := fun j => X10 (ix1 j)
/-- The last layer's weights: the one row of its matrix. -/
def w3 : Fin 1024 → EReal := fun q => X11 (ix2 (0 : Fin 1) q)
/-- The last layer's bias. -/
def b3 : EReal := X12 (ix1 (0 : Fin 1))

/-- Entry (i, j) of the next hidden state. -/
def hiddenAt (i : Fin 65536) (j : Fin 512) : EReal :=
  hiddenNext (stateRow X0 i) (actionRow X1 i) (hiddenRow X2 i) (wInS X3) (wInA X3) (wHid X4) (bIn X5) (bHid X6) j

/-- The network's number for batch row `i`. -/
def qAt (i : Fin 65536) : EReal :=
  qValue (stateRow X0 i) (actionRow X1 i) (hiddenRow X2 i) (wInS X3) (wInA X3) (wHid X4) (bIn X5) (bHid X6)
    (w1 X7) (b1 X8) (w2 X9) (b2 X10) (w3 X11) (b3 X12)

/-- The next hidden state as a 65536 × 512 array. -/
def hiddenArr : FVec Ideal ⟨2, ![65536, 512]⟩ .f32 := fun idx => hiddenAt X0 X1 X2 X3 X4 X5 X6 (idx 0) (idx 1)

/-- The network's numbers as a 65536 × 1 array. -/
def qArr : FVec Ideal ⟨2, ![65536, 1]⟩ .f32 := fun idx => qAt X0 X1 X2 X3 X4 X5 X6 X7 X8 X9 X10 X11 X12 (idx 0)

end Arrays

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelPayload.lean ====
/-
  The kernel body's two stored values read at one entry of their block.

  The body works on a block of 512 batch rows. Its value for the hidden output at block entry (r, j) and its value for
  the network's number at block row r depend on row r of the three row blocks only, and on the resident weight blocks
  whole: they are the row functions of the specification at those rows. The matrix products into zero accumulators are
  plain sums of products; the changes of float format are the identity; the three slices of the 1536 gate columns read
  columns j, 512 + j and 1024 + j; the broadcast biases read their one row.
-/
import proofs.«131729_j57406532878787_1_alg».proof.Proof.Gen.KernelIdeal.Skeleton
import proofs.«131729_j57406532878787_1_alg».proof.Proof.Spec
import proofs.«131729_j57406532878787_1_alg».proof.Proof.LibDotPlain
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable (x0 : Vec Ideal S512x256 .f32) (x1 : Vec Ideal S512x64 .f32) (x2 : Vec Ideal S512x512 .f32)
  (x3 : Vec Ideal S256x1536 .bf16) (x4 : Vec Ideal S64x1536 .bf16) (x5 : Vec Ideal S512x1536 .bf16)
  (x6 x7 : Vec Ideal S1x1536 .f32) (x8 : Vec Ideal S512x1024 .bf16) (x9 : Vec Ideal S1x1024 .f32)
  (x10 : Vec Ideal S1024x1024 .bf16) (x11 : Vec Ideal S1x1024 .f32) (x12 : Vec Ideal S1024x1 .bf16)
  (x13 : Vec Ideal S1x1 .f32)

/-! ## The dimension numbers of the products are the plain ones

Each product contracts the left factor's axis 1 with the right factor's axis 0 and has no batch axis; the records below
have the plain record's fields, so the two are the same record. -/

theorem dotStateGates_plain : dot_S512x256_S256x1536_S512x1536_1_0_0_1_n_n = DotDims.plain 512 256 1536 := rfl
theorem dotActionGates_plain : dot_S512x64_S64x1536_S512x1536_1_0_0_1_n_n = DotDims.plain 512 64 1536 := rfl
theorem dotHiddenGates_plain : dot_S512x512_S512x1536_S512x1536_1_0_0_1_n_n = DotDims.plain 512 512 1536 := rfl

/-! ## The gate columns -/

/-- The gates' pre-activation from the inputs at block entry (r, c): two sums of products and the bias's one row. -/
theorem pay4_at (r : Fin 512) (c : Fin 1536) :
    k0_pay4 (F := Ideal) x0 x1 x3 x4 x6 (ix2 r c)
      = Cert.Spec.gateIn (fun q => x0 (ix2 r q)) (fun q => x1 (ix2 r q)) (fun q c => x3 (ix2 q c))
          (fun q c => x4 (ix2 q c)) (fun c => x6 (ix2 (0 : Fin 1) c)) c := by
  unfold k0_pay4 Cert.Spec.gateIn
  show (FloatOps.matmul (F := Ideal) (DotDims.plain 512 256 1536) none (truncf (F := Ideal) .bf16 x0 bitsLt_bf16_f32)
          (shapeCast S256x1536 x3 shapeCasts_S256x1536_S256x1536) (constant ⟨2, ![512, 1536]⟩ .f32 0x00000000#32) (ix2 r c)
        + FloatOps.matmul (F := Ideal) (DotDims.plain 512 64 1536) none (truncf (F := Ideal) .bf16 x1 bitsLt_bf16_f32)
          (shapeCast S64x1536 x4 shapeCasts_S64x1536_S64x1536) (constant ⟨2, ![512, 1536]⟩ .f32 0x00000000#32) (ix2 r c))
        + broadcastTo S512x1536 (shapeCast S1x1536 x6 shapeCasts_S1x1536_S1x1536) broadcasts_S1x1536_S512x1536 (ix2 r c) = _
  rw [shapeCast_self, shapeCast_self, shapeCast_self, Cert.LibDotPlain.matmul_zero_plain, Cert.LibDotPlain.matmul_zero_plain,
    broadcastTo_apply _ _ (ix2 r c) (ix2 (0 : Fin 1) c) (fun a => by match a with | ⟨0, _⟩ => rfl | ⟨1, _⟩ => rfl)]
  rfl

/-- The hidden block as the body reads it: the cast to its own shape changes nothing. -/
theorem pay3_eq : k0_pay3 (F := Ideal) x2 = x2 := by
  unfold k0_pay3
  exact shapeCast_self _ _

/-- The gates' pre-activation from the hidden row at block entry (r, c). -/
theorem pay5_at (r : Fin 512) (c : Fin 1536) :
    k0_pay5 (F := Ideal) x2 x5 x7 (ix2 r c)
      = Cert.Spec.gateHid (fun q => x2 (ix2 r q)) (fun q c => x5 (ix2 q c)) (fun c => x7 (ix2 (0 : Fin 1) c)) c := by
  unfold k0_pay5 k0_pay3 Cert.Spec.gateHid
  show FloatOps.matmul (F := Ideal) (DotDims.plain 512 512 1536) none
          (truncf (F := Ideal) .bf16 (shapeCast S512x512 x2 shapeCasts_S512x512_S512x512) bitsLt_bf16_f32)
          (shapeCast S512x1536 x5 shapeCasts_S512x1536_S512x1536) (constant ⟨2, ![512, 1536]⟩ .f32 0x00000000#32) (ix2 r c)
        + broadcastTo S512x1536 (shapeCast S1x1536 x7 shapeCasts_S1x1536_S1x1536) broadcasts_S1x1536_S512x1536 (ix2 r c) = _
  rw [shapeCast_self, shapeCast_self, shapeCast_self, Cert.LibDotPlain.matmul_zero_plain,
    broadcastTo_apply _ _ (ix2 r c) (ix2 (0 : Fin 1) c) (fun a => by match a with | ⟨0, _⟩ => rfl | ⟨1, _⟩ => rfl)]
  rfl

/-! ## The three slices of the gate columns -/

section Slices
variable (g : FVec Ideal S512x1536 .f32)

/-- The first third of the gate columns at (r, j) is column j. -/
theorem slice0_at (r : Fin 512) (j : Fin 512) :
    extractStridedSlice S512x512 ![0, 0] g slices_S512x1536_o0_0_S512x512 (ix2 r j) = g (ix2 r (Cert.Spec.colR j)) :=
  extractStridedSlice_apply _ _ _ (ix2 r j) (ix2 r (Cert.Spec.colR j))
    (fun a => by match a with | ⟨0, _⟩ => exact (Nat.zero_add _).symm | ⟨1, _⟩ => exact (Nat.zero_add _).symm)

/-- The second third at (r, j) is column 512 + j. -/
theorem slice512_at (r : Fin 512) (j : Fin 512) :
    extractStridedSlice S512x512 ![0, 512] g slices_S512x1536_o0_512_S512x512 (ix2 r j) = g (ix2 r (Cert.Spec.colZ j)) :=
  extractStridedSlice_apply _ _ _ (ix2 r j) (ix2 r (Cert.Spec.colZ j))
    (fun a => by match a with | ⟨0, _⟩ => exact (Nat.zero_add _).symm | ⟨1, _⟩ => rfl)

/-- The last third at (r, j) is column 1024 + j. -/
theorem slice1024_at (r : Fin 512) (j : Fin 512) :
    extractStridedSlice S512x512 ![0, 1024] g slices_S512x1536_o0_1024_S512x512 (ix2 r j) = g (ix2 r (Cert.Spec.colN j)) :=
  extractStridedSlice_apply _ _ _ (ix2 r j) (ix2 r (Cert.Spec.colN j))
    (fun a => by match a with | ⟨0, _⟩ => exact (Nat.zero_add _).symm | ⟨1, _⟩ => rfl)

end Slices

/-! ## The gates and the next hidden value -/

/-- The update gate at block entry (r, j). -/
theorem pay6_at (r : Fin 512) (j : Fin 512) :
    k0_pay6 (F := Ideal) x0 x1 x2 x3 x4 x6 x5 x7 (ix2 r j)
      = Cert.Spec.update (fun q => x0 (ix2 r q)) (fun q => x1 (ix2 r q)) (fun q => x2 (ix2 r q))
          (fun q c => x3 (ix2 q c)) (fun q c => x4 (ix2 q c)) (fun q c => x5 (ix2 q c))
          (fun c => x6 (ix2 (0 : Fin 1) c)) (fun c => x7 (ix2 (0 : Fin 1) c)) j := by
  unfold k0_pay6 Cert.Spec.update
  show Ideal.logistic
      (extractStridedSlice S512x512 ![0, 512] (k0_pay4 (F := Ideal) x0 x1 x3 x4 x6) slices_S512x1536_o0_512_S512x512 (ix2 r j)
        + extractStridedSlice S512x512 ![0, 512] (k0_pay5 (F := Ideal) x2 x5 x7) slices_S512x1536_o0_512_S512x512 (ix2 r j)) = _
  rw [slice512_at, slice512_at, pay4_at, pay5_at]

/-- The candidate at block entry (r, j). -/
theorem pay7_at (r : Fin 512) (j : Fin 512) :
    k0_pay7 (F := Ideal) x0 x1 x2 x3 x4 x6 x5 x7 (ix2 r j)
      = Cert.Spec.cand (fun q => x0 (ix2 r q)) (fun q => x1 (ix2 r q)) (fun q => x2 (ix2 r q))
          (fun q c => x3 (ix2 q c)) (fun q c => x4 (ix2 q c)) (fun q c => x5 (ix2 q c))
          (fun c => x6 (ix2 (0 : Fin 1) c)) (fun c => x7 (ix2 (0 : Fin 1) c)) j := by
  unfold k0_pay7 Cert.Spec.cand Cert.Spec.reset
  show Ideal.tanh
      (extractStridedSlice S512x512 ![0, 1024] (k0_pay4 (F := Ideal) x0 x1 x3 x4 x6) slices_S512x1536_o0_1024_S512x512 (ix2 r j)
        + Ideal.logistic
            (extractStridedSlice S512x512 ![0, 0] (k0_pay4 (F := Ideal) x0 x1 x3 x4 x6) slices_S512x1536_o0_0_S512x512 (ix2 r j)
              + extractStridedSlice S512x512 ![0, 0] (k0_pay5 (F := Ideal) x2 x5 x7) slices_S512x1536_o0_0_S512x512 (ix2 r j))
          * extractStridedSlice S512x512 ![0, 1024] (k0_pay5 (F := Ideal) x2 x5 x7) slices_S512x1536_o0_1024_S512x512 (ix2 r j)) = _
  rw [slice1024_at, slice1024_at, slice0_at, slice0_at, pay4_at, pay4_at, pay5_at, pay5_at]

/-- The broadcast word for one reads the number one everywhere. -/
theorem pay8_at (i : S512x512.Idx) : k0_pay8 (F := Ideal) i = Cert.Spec.one := rfl

/-- The stored hidden value at block entry (r, j) is the next hidden row of block row r at column j. -/
theorem hidden_at (r : Fin 512) (j : Fin 512) :
    k0_pay1 (F := Ideal) (k0_pay3 x2) (k0_pay6 x0 x1 x2 x3 x4 x6 x5 x7) (k0_pay7 x0 x1 x2 x3 x4 x6 x5 x7)
        (k0_pay8 (F := Ideal)) (ix2 r j)
      = Cert.Spec.hiddenNext (fun q => x0 (ix2 r q)) (fun q => x1 (ix2 r q)) (fun q => x2 (ix2 r q))
          (fun q c => x3 (ix2 q c)) (fun q c => x4 (ix2 q c)) (fun q c => x5 (ix2 q c))
          (fun c => x6 (ix2 (0 : Fin 1) c)) (fun c => x7 (ix2 (0 : Fin 1) c)) j := by
  unfold k0_pay1 Cert.Spec.hiddenNext
  show (k0_pay8 (F := Ideal) (ix2 r j) - k0_pay6 (F := Ideal) x0 x1 x2 x3 x4 x6 x5 x7 (ix2 r j))
        * k0_pay7 (F := Ideal) x0 x1 x2 x3 x4 x6 x5 x7 (ix2 r j)
      + k0_pay6 (F := Ideal) x0 x1 x2 x3 x4 x6 x5 x7 (ix2 r j) * k0_pay3 (F := Ideal) x2 (ix2 r j) = _
  rw [pay6_at, pay7_at, pay3_eq, pay8_at]

/-! ## The three dense layers, over any left factor -/

theorem dotLayer1_plain : dot_S512x512_S512x1024_S512x1024_1_0_0_1_n_n = DotDims.plain 512 512 1024 := rfl
theorem dotLayer2_plain : dot_S512x1024_S1024x1024_S512x1024_1_0_0_1_n_n = DotDims.plain 512 1024 1024 := rfl
theorem dotLayer3_plain : dot_S512x1024_S1024x1_S512x1_1_0_0_1_n_n = DotDims.plain 512 1024 1 := rfl

/-- The first dense layer on a block: product into zero, bias row, maximum with zero. -/
def dense1 (y : FVec Ideal S512x512 .f32) : FVec Ideal S512x1024 .f32 :=
  maximumf
    (addf
      (matmul (φ₂ := .bf16) dot_S512x512_S512x1024_S512x1024_1_0_0_1_n_n none (truncf (F := Ideal) .bf16 y bitsLt_bf16_f32)
        (shapeCast S512x1024 x8 shapeCasts_S512x1024_S512x1024) (constant S512x1024 .f32 0x00000000#32))
      (broadcastTo S512x1024 (shapeCast S1x1024 x9 shapeCasts_S1x1024_S1x1024) broadcasts_S1x1024_S512x1024))
    (broadcast S512x1024 (Scalar.ofBits (F := Ideal) .f32 0x00000000#32))

/-- The second dense layer on a block. -/
def dense2 (y : FVec Ideal S512x1024 .f32) : FVec Ideal S512x1024 .f32 :=
  maximumf
    (addf
      (matmul (φ₂ := .bf16) dot_S512x1024_S1024x1024_S512x1024_1_0_0_1_n_n none (truncf (F := Ideal) .bf16 y bitsLt_bf16_f32)
        (shapeCast S1024x1024 x10 shapeCasts_S1024x1024_S1024x1024) (constant S512x1024 .f32 0x00000000#32))
      (broadcastTo S512x1024 (shapeCast S1x1024 x11 shapeCasts_S1x1024_S1x1024) broadcasts_S1x1024_S512x1024))
    (broadcast S512x1024 (Scalar.ofBits (F := Ideal) .f32 0x00000000#32))

/-- The last dense layer on a block. -/
def dense3 (y : FVec Ideal S512x1024 .f32) : FVec Ideal S512x1 .f32 :=
  addf
    (matmul (φ₂ := .bf16) dot_S512x1024_S1024x1_S512x1_1_0_0_1_n_n none (truncf (F := Ideal) .bf16 y bitsLt_bf16_f32)
      (shapeCast S1024x1 x12 shapeCasts_S1024x1_S1024x1) (constant S512x1 .f32 0x00000000#32))
    (broadcastTo S512x1 (shapeCast S1x1 x13 shapeCasts_S1x1_S1x1) broadcasts_S1x1_S512x1)

/-- The first layer at block entry (r, j) is the specification's first layer of row r of its left factor. -/
theorem dense1_at (y : FVec Ideal S512x512 .f32) (r : Fin 512) (j : Fin 1024) :
    dense1 x8 x9 y (ix2 r j)
      = Cert.Spec.layer1 (fun q j => x8 (ix2 q j)) (fun j => x9 (ix2 (0 : Fin 1) j)) (fun q => y (ix2 r q)) j := by
  unfold dense1 Cert.Spec.layer1
  show max
      (FloatOps.matmul (F := Ideal) (DotDims.plain 512 512 1024) none (truncf (F := Ideal) .bf16 y bitsLt_bf16_f32)
          (shapeCast S512x1024 x8 shapeCasts_S512x1024_S512x1024) (constant ⟨2, ![512, 1024]⟩ .f32 0x00000000#32) (ix2 r j)
        + broadcastTo S512x1024 (shapeCast S1x1024 x9 shapeCasts_S1x1024_S1x1024) broadcasts_S1x1024_S512x1024 (ix2 r j))
      Cert.Spec.zero = _
  rw [shapeCast_self, shapeCast_self, Cert.LibDotPlain.matmul_zero_plain,
    broadcastTo_apply _ _ (ix2 r j) (ix2 (0 : Fin 1) j) (fun a => by match a with | ⟨0, _⟩ => rfl | ⟨1, _⟩ => rfl)]
  rfl

/-- The second layer at block entry (r, j). -/
theorem dense2_at (y : FVec Ideal S512x1024 .f32) (r : Fin 512) (j : Fin 1024) :
    dense2 x10 x11 y (ix2 r j)
      = Cert.Spec.layer2 (fun q j => x10 (ix2 q j)) (fun j => x11 (ix2 (0 : Fin 1) j)) (fun q => y (ix2 r q)) j := by
  unfold dense2 Cert.Spec.layer2
  show max
      (FloatOps.matmul (F := Ideal) (DotDims.plain 512 1024 1024) none (truncf (F := Ideal) .bf16 y bitsLt_bf16_f32)
          (shapeCast S1024x1024 x10 shapeCasts_S1024x1024_S1024x1024) (constant ⟨2, ![512, 1024]⟩ .f32 0x00000000#32) (ix2 r j)
        + broadcastTo S512x1024 (shapeCast S1x1024 x11 shapeCasts_S1x1024_S1x1024) broadcasts_S1x1024_S512x1024 (ix2 r j))
      Cert.Spec.zero = _
  rw [shapeCast_self, shapeCast_self, Cert.LibDotPlain.matmul_zero_plain,
    broadcastTo_apply _ _ (ix2 r j) (ix2 (0 : Fin 1) j) (fun a => by match a with | ⟨0, _⟩ => rfl | ⟨1, _⟩ => rfl)]
  rfl

/-- The last layer at block row r. -/
theorem dense3_at (y : FVec Ideal S512x1024 .f32) (r : Fin 512) :
    dense3 x12 x13 y (ix2 r (0 : Fin 1))
      = Cert.Spec.layer3 (fun q => x12 (ix2 q (0 : Fin 1))) (x13 (ix2 (0 : Fin 1) (0 : Fin 1))) (fun q => y (ix2 r q)) := by
  unfold dense3 Cert.Spec.layer3
  show FloatOps.matmul (F := Ideal) (DotDims.plain 512 1024 1) none (truncf (F := Ideal) .bf16 y bitsLt_bf16_f32)
          (shapeCast S1024x1 x12 shapeCasts_S1024x1_S1024x1) (constant ⟨2, ![512, 1]⟩ .f32 0x00000000#32) (ix2 r (0 : Fin 1))
        + broadcastTo S512x1 (shapeCast S1x1 x13 shapeCasts_S1x1_S1x1) broadcasts_S1x1_S512x1 (ix2 r (0 : Fin 1)) = _
  rw [shapeCast_self, shapeCast_self, Cert.LibDotPlain.matmul_zero_plain,
    broadcastTo_apply _ _ (ix2 r (0 : Fin 1)) (ix2 (0 : Fin 1) (0 : Fin 1))
      (fun a => by match a with | ⟨0, _⟩ => rfl | ⟨1, _⟩ => rfl)]
  rfl

/-- The body's stored number is the three layers applied in turn to its stored hidden block. -/
theorem pay2_eq (v5 v34 v37 v38 : FVec Ideal S512x512 .f32) :
    k0_pay2 (F := Ideal) v5 v34 v37 v38 x8 x9 x10 x11 x12 x13
      = dense3 x12 x13 (dense2 x10 x11 (dense1 x8 x9 (k0_pay1 (F := Ideal) v5 v34 v37 v38))) := rfl

/-- The stored number at block row r is the network's number for block row r. -/
theorem q_at (r : Fin 512) :
    k0_pay2 (F := Ideal) (k0_pay3 x2) (k0_pay6 x0 x1 x2 x3 x4 x6 x5 x7) (k0_pay7 x0 x1 x2 x3 x4 x6 x5 x7)
        (k0_pay8 (F := Ideal)) x8 x9 x10 x11 x12 x13 (ix2 r (0 : Fin 1))
      = Cert.Spec.qValue (fun q => x0 (ix2 r q)) (fun q => x1 (ix2 r q)) (fun q => x2 (ix2 r q))
          (fun q c => x3 (ix2 q c)) (fun q c => x4 (ix2 q c)) (fun q c => x5 (ix2 q c))
          (fun c => x6 (ix2 (0 : Fin 1) c)) (fun c => x7 (ix2 (0 : Fin 1) c))
          (fun q j => x8 (ix2 q j)) (fun j => x9 (ix2 (0 : Fin 1) j))
          (fun q j => x10 (ix2 q j)) (fun j => x11 (ix2 (0 : Fin 1) j))
          (fun q => x12 (ix2 q (0 : Fin 1))) (x13 (ix2 (0 : Fin 1) (0 : Fin 1))) := by
  -- row r of the stored hidden block is the next hidden row
  have h1 : (fun q : Fin 512 => k0_pay1 (F := Ideal) (k0_pay3 x2) (k0_pay6 x0 x1 x2 x3 x4 x6 x5 x7)
        (k0_pay7 x0 x1 x2 x3 x4 x6 x5 x7) (k0_pay8 (F := Ideal)) (ix2 r q))
      = Cert.Spec.hiddenNext (fun q => x0 (ix2 r q)) (fun q => x1 (ix2 r q)) (fun q => x2 (ix2 r q))
          (fun q c => x3 (ix2 q c)) (fun q c => x4 (ix2 q c)) (fun q c => x5 (ix2 q c))
          (fun c => x6 (ix2 (0 : Fin 1) c)) (fun c => x7 (ix2 (0 : Fin 1) c)) :=
    funext fun q => hidden_at x0 x1 x2 x3 x4 x5 x6 x7 r q
  rw [pay2_eq, dense3_at]
  unfold Cert.Spec.qValue
  congr 1
  funext q
  rw [dense2_at]
  congr 1
  funext q'
  rw [dense1_at, h1]

end Cert.KernelIdeal.Payload

end
-- ==== Proof.KernelArrays.lean ====
/-
  The kernel's two results as functions of the argument arrays.

  The pallas_call runs the body at 128 grid points; point t works on batch rows 512 t … 512 t + 511. Three windows move
  with the point (the state, the action and the reshaped hidden array), eleven windows hold a whole weight or bias array
  prepared by the host before the call (the transposed weight matrices, the input weights cut at row 256 of the
  transpose, the biases given a leading unit axis), and two output windows take what the body stores: 512 numbers and a
  512 × 512 block of the next hidden state.

  First the host-prepared arrays are read at an entry in terms of the arguments. Then block row r of a moving window at
  point t is row 512 t + r of its array, so the body's stored values at a block entry are the specification's row
  functions at batch row 512 t + r: what a point writes back is its block of the specification's array. The 128 blocks
  tile each output array, hence each output array ends as the specification's. The one host operation after the call
  gives the hidden result its leading unit axis.
-/
import proofs.«131729_j57406532878787_1_alg».proof.Proof.Gen.KernelIdeal.Frame
import proofs.«131729_j57406532878787_1_alg».proof.Proof.Spec
import proofs.«131729_j57406532878787_1_alg».proof.Proof.KernelPayload
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

open scoped BigOperators

namespace Cert.KernelIdeal.Arrays

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-! ## The argument arrays, by name -/

abbrev A0 (c : Dev nD) : S65536x256.Idx → EReal := m ((c : Thread nD τ).loc main_arg0)
abbrev A1 (c : Dev nD) : S65536x64.Idx → EReal := m ((c : Thread nD τ).loc main_arg1)
abbrev A2 (c : Dev nD) : S1x65536x512.Idx → EReal := m ((c : Thread nD τ).loc main_arg2)
abbrev A3 (c : Dev nD) : S1536x320.Idx → EReal := m ((c : Thread nD τ).loc main_arg3)
abbrev A4 (c : Dev nD) : S1536x512.Idx → EReal := m ((c : Thread nD τ).loc main_arg4)
abbrev A5 (c : Dev nD) : S1536.Idx → EReal := m ((c : Thread nD τ).loc main_arg5)
abbrev A6 (c : Dev nD) : S1536.Idx → EReal := m ((c : Thread nD τ).loc main_arg6)
abbrev A7 (c : Dev nD) : S1024x512.Idx → EReal := m ((c : Thread nD τ).loc main_arg7)
abbrev A8 (c : Dev nD) : S1024.Idx → EReal := m ((c : Thread nD τ).loc main_arg8)
abbrev A9 (c : Dev nD) : S1024x1024.Idx → EReal := m ((c : Thread nD τ).loc main_arg9)
abbrev A10 (c : Dev nD) : S1024.Idx → EReal := m ((c : Thread nD τ).loc main_arg10)
abbrev A11 (c : Dev nD) : S1x1024.Idx → EReal := m ((c : Thread nD τ).loc main_arg11)
abbrev A12 (c : Dev nD) : S1.Idx → EReal := m ((c : Thread nD τ).loc main_arg12)

/-! ## The arrays the host prepares before the call, read at an entry -/

/-- The hidden array without its leading unit axis: entry (i, q) is entry (0, i, q) of the argument. -/
theorem hidden2d_at (c : Dev nD) (i : Fin 65536) (q : Fin 512) :
    (V m c main_v0 : S65536x512.Idx → EReal) (ix2 i q) = A2 m c (ix3 (0 : Fin 1) i q) := by
  have e : (V m c main_v0 : S65536x512.Idx → EReal)
      = shapeCast S65536x512 (A2 m c) shapeCasts_S1x65536x512_S65536x512 := by
    show StableHlo.after hostOps0 (fun b => m (c, b)) (Proc.devRef .tc main_v0) = _
    after_results <;> rfl
  rw [e]
  refine shapeCast_apply (A2 m c) shapeCasts_S1x65536x512_S65536x512 (ix2 i q) (ix3 (0 : Fin 1) i q) ?_
  rw [Shape.rowMajor_val_three, Shape.rowMajor_val_two]
  show (0 * 65536 + i.val) * 512 + q.val = i.val * 512 + q.val
  omega

/-- The state's part of the input weights: entry (q, k) is entry (k, q) of the weight matrix. -/
theorem wInS_at (c : Dev nD) (q : Fin 256) (k : Fin 1536) :
    (V m c main_v3 : S256x1536.Idx → EReal) (ix2 q k) = Cert.Spec.wInS (A3 m c) q k := by
  have e : (V m c main_v3 : S256x1536.Idx → EReal)
      = (extractStridedSlice S256x1536 ![0, 0] (truncf (F := Ideal) .bf16 (transpose S320x1536 [1, 0] (A3 m c) transposes_S1536x320_S320x1536_1_0) bitsLt_bf16_f32) slices_S320x1536_S256x1536_0_0 : S256x1536.Idx → EReal) := by
    show StableHlo.after hostOps0 (fun b => m (c, b)) (Proc.devRef .tc main_v3) = _
    after_results <;> rfl
  rw [e]
  refine (extractStridedSlice_apply ![0, 0] _ slices_S320x1536_S256x1536_0_0 (ix2 q k) (ix2 (⟨q.val, by omega⟩ : Fin 320) k) (fun a => match a with
    | ⟨0, _⟩ => by show q.val = 0 + q.val; omega
    | ⟨1, _⟩ => by show k.val = 0 + k.val; omega)).trans ?_
  exact transpose_apply [1, 0] (A3 m c) transposes_S1536x320_S320x1536_1_0 (ix2 (⟨q.val, by omega⟩ : Fin 320) k) (ix2 k (⟨q.val, by omega⟩ : Fin 320)) (fun b => match b with
    | ⟨0, _⟩ => rfl
    | ⟨1, _⟩ => rfl)

/-- The action's part of the input weights: entry (q, k) is entry (k, 256 + q) of the weight matrix. -/
theorem wInA_at (c : Dev nD) (q : Fin 64) (k : Fin 1536) :
    (V m c main_v4 : S64x1536.Idx → EReal) (ix2 q k) = Cert.Spec.wInA (A3 m c) q k := by
  have e : (V m c main_v4 : S64x1536.Idx → EReal)
      = (extractStridedSlice S64x1536 ![256, 0] (truncf (F := Ideal) .bf16 (transpose S320x1536 [1, 0] (A3 m c) transposes_S1536x320_S320x1536_1_0) bitsLt_bf16_f32) slices_S320x1536_S64x1536_256_0 : S64x1536.Idx → EReal) := by
    show StableHlo.after hostOps0 (fun b => m (c, b)) (Proc.devRef .tc main_v4) = _
    after_results <;> rfl
  rw [e]
  refine (extractStridedSlice_apply ![256, 0] _ slices_S320x1536_S64x1536_256_0 (ix2 q k) (ix2 (⟨256 + q.val, by omega⟩ : Fin 320) k) (fun a => match a with
    | ⟨0, _⟩ => by show 256 + q.val = 256 + q.val; rfl
    | ⟨1, _⟩ => by show k.val = 0 + k.val; omega)).trans ?_
  exact transpose_apply [1, 0] (A3 m c) transposes_S1536x320_S320x1536_1_0 (ix2 (⟨256 + q.val, by omega⟩ : Fin 320) k) (ix2 k (⟨256 + q.val, by omega⟩ : Fin 320)) (fun b => match b with
    | ⟨0, _⟩ => rfl
    | ⟨1, _⟩ => rfl)

/-- The hidden weights: entry (q, k) is entry (k, q) of the weight matrix. -/
theorem wHid_at (c : Dev nD) (q : Fin 512) (k : Fin 1536) :
    (V m c main_v6 : S512x1536.Idx → EReal) (ix2 q k) = Cert.Spec.wHid (A4 m c) q k := by
  have e : (V m c main_v6 : S512x1536.Idx → EReal)
      = (truncf (F := Ideal) .bf16 (transpose S512x1536 [1, 0] (A4 m c) transposes_S1536x512_S512x1536_1_0) bitsLt_bf16_f32 : S512x1536.Idx → EReal) := by
    show StableHlo.after hostOps0 (fun b => m (c, b)) (Proc.devRef .tc main_v6) = _
    after_results <;> rfl
  rw [e]
  exact transpose_apply [1, 0] (A4 m c) transposes_S1536x512_S512x1536_1_0 (ix2 q k) (ix2 k q) (fun b => match b with
    | ⟨0, _⟩ => rfl
    | ⟨1, _⟩ => rfl)

/-- The first layer's weights, transposed. -/
theorem w1_at (c : Dev nD) (q : Fin 512) (j : Fin 1024) :
    (V m c main_v8 : S512x1024.Idx → EReal) (ix2 q j) = Cert.Spec.w1 (A7 m c) q j := by
  have e : (V m c main_v8 : S512x1024.Idx → EReal)
      = (truncf (F := Ideal) .bf16 (transpose S512x1024 [1, 0] (A7 m c) transposes_S1024x512_S512x1024_1_0) bitsLt_bf16_f32 : S512x1024.Idx → EReal) := by
    show StableHlo.after hostOps0 (fun b => m (c, b)) (Proc.devRef .tc main_v8) = _
    after_results <;> rfl
  rw [e]
  exact transpose_apply [1, 0] (A7 m c) transposes_S1024x512_S512x1024_1_0 (ix2 q j) (ix2 j q) (fun b => match b with
    | ⟨0, _⟩ => rfl
    | ⟨1, _⟩ => rfl)

/-- The second layer's weights, transposed. -/
theorem w2_at (c : Dev nD) (q : Fin 1024) (j : Fin 1024) :
    (V m c main_v10 : S1024x1024.Idx → EReal) (ix2 q j) = Cert.Spec.w2 (A9 m c) q j := by
  have e : (V m c main_v10 : S1024x1024.Idx → EReal)
      = (truncf (F := Ideal) .bf16 (transpose S1024x1024 [1, 0] (A9 m c) transposes_S1024x1024_S1024x1024_1_0) bitsLt_bf16_f32 : S1024x1024.Idx → EReal) := by
    show StableHlo.after hostOps0 (fun b => m (c, b)) (Proc.devRef .tc main_v10) = _
    after_results <;> rfl
  rw [e]
  exact transpose_apply [1, 0] (A9 m c) transposes_S1024x1024_S1024x1024_1_0 (ix2 q j) (ix2 j q) (fun b => match b with
    | ⟨0, _⟩ => rfl
    | ⟨1, _⟩ => rfl)

/-- The last layer's weights as a column: entry (q, 0) is entry (0, q) of the one-row matrix. -/
theorem w3_at (c : Dev nD) (q : Fin 1024) :
    (V m c main_v12 : S1024x1.Idx → EReal) (ix2 q (0 : Fin 1)) = Cert.Spec.w3 (A11 m c) q := by
  have e : (V m c main_v12 : S1024x1.Idx → EReal)
      = (truncf (F := Ideal) .bf16 (transpose S1024x1 [1, 0] (A11 m c) transposes_S1x1024_S1024x1_1_0) bitsLt_bf16_f32 : S1024x1.Idx → EReal) := by
    show StableHlo.after hostOps0 (fun b => m (c, b)) (Proc.devRef .tc main_v12) = _
    after_results <;> rfl
  rw [e]
  exact transpose_apply [1, 0] (A11 m c) transposes_S1x1024_S1024x1_1_0 (ix2 q (0 : Fin 1)) (ix2 (0 : Fin 1) q) (fun b => match b with
    | ⟨0, _⟩ => rfl
    | ⟨1, _⟩ => rfl)

/-- The input bias as a one-row matrix. -/
theorem bIn_at (c : Dev nD) (k : Fin 1536) :
    (V m c main_v13 : S1x1536.Idx → EReal) (ix2 (0 : Fin 1) k) = Cert.Spec.bIn (A5 m c) k := by
  have e : (V m c main_v13 : S1x1536.Idx → EReal) = shapeCast S1x1536 (A5 m c) shapeCasts_S1536_S1x1536 := by
    show StableHlo.after hostOps0 (fun b => m (c, b)) (Proc.devRef .tc main_v13) = _
    after_results <;> rfl
  rw [e]
  refine shapeCast_apply (A5 m c) shapeCasts_S1536_S1x1536 (ix2 (0 : Fin 1) k) (ix1 k) ?_
  rw [Shape.rowMajor_val_one, Shape.rowMajor_val_two]
  show k.val = 0 * 1536 + k.val
  omega

/-- The hidden bias as a one-row matrix. -/
theorem bHid_at (c : Dev nD) (k : Fin 1536) :
    (V m c main_v14 : S1x1536.Idx → EReal) (ix2 (0 : Fin 1) k) = Cert.Spec.bHid (A6 m c) k := by
  have e : (V m c main_v14 : S1x1536.Idx → EReal) = shapeCast S1x1536 (A6 m c) shapeCasts_S1536_S1x1536 := by
    show StableHlo.after hostOps0 (fun b => m (c, b)) (Proc.devRef .tc main_v14) = _
    after_results <;> rfl
  rw [e]
  refine shapeCast_apply (A6 m c) shapeCasts_S1536_S1x1536 (ix2 (0 : Fin 1) k) (ix1 k) ?_
  rw [Shape.rowMajor_val_one, Shape.rowMajor_val_two]
  show k.val = 0 * 1536 + k.val
  omega

/-- The first layer's bias as a one-row matrix. -/
theorem b1_at (c : Dev nD) (j : Fin 1024) :
    (V m c main_v15 : S1x1024.Idx → EReal) (ix2 (0 : Fin 1) j) = Cert.Spec.b1 (A8 m c) j := by
  have e : (V m c main_v15 : S1x1024.Idx → EReal) = shapeCast S1x1024 (A8 m c) shapeCasts_S1024_S1x1024 := by
    show StableHlo.after hostOps0 (fun b => m (c, b)) (Proc.devRef .tc main_v15) = _
    after_results <;> rfl
  rw [e]
  refine shapeCast_apply (A8 m c) shapeCasts_S1024_S1x1024 (ix2 (0 : Fin 1) j) (ix1 j) ?_
  rw [Shape.rowMajor_val_one, Shape.rowMajor_val_two]
  show j.val = 0 * 1024 + j.val
  omega

/-- The second layer's bias as a one-row matrix. -/
theorem b2_at (c : Dev nD) (j : Fin 1024) :
    (V m c main_v16 : S1x1024.Idx → EReal) (ix2 (0 : Fin 1) j) = Cert.Spec.b2 (A10 m c) j := by
  have e : (V m c main_v16 : S1x1024.Idx → EReal) = shapeCast S1x1024 (A10 m c) shapeCasts_S1024_S1x1024 := by
    show StableHlo.after hostOps0 (fun b => m (c, b)) (Proc.devRef .tc main_v16) = _
    after_results <;> rfl
  rw [e]
  refine shapeCast_apply (A10 m c) shapeCasts_S1024_S1x1024 (ix2 (0 : Fin 1) j) (ix1 j) ?_
  rw [Shape.rowMajor_val_one, Shape.rowMajor_val_two]
  show j.val = 0 * 1024 + j.val
  omega

/-- The last layer's bias as a one-entry matrix. -/
theorem b3_at (c : Dev nD) :
    (V m c main_v17 : S1x1.Idx → EReal) (ix2 (0 : Fin 1) (0 : Fin 1)) = Cert.Spec.b3 (A12 m c) := by
  have e : (V m c main_v17 : S1x1.Idx → EReal) = shapeCast S1x1 (A12 m c) shapeCasts_S1_S1x1 := by
    show StableHlo.after hostOps0 (fun b => m (c, b)) (Proc.devRef .tc main_v17) = _
    after_results <;> rfl
  rw [e]
  refine shapeCast_apply (A12 m c) shapeCasts_S1_S1x1 (ix2 (0 : Fin 1) (0 : Fin 1)) (ix1 (0 : Fin 1)) ?_
  rw [Shape.rowMajor_val_one, Shape.rowMajor_val_two]
  rfl

/-! ## The grid's points and the windows' block indices -/

/-- The grid has 128 points. -/
theorem point_lt (t : Fin cfg0.N) : t.val < 128 := Nat.lt_of_lt_of_eq t.isLt N_0

/-- The batch row that block row `r` is at point `t`. -/
def batchRow (t : Fin cfg0.N) (r : Fin 512) : Fin 65536 := ⟨512 * t.val + r.val, by have := point_lt t; omega⟩

/-- The printed index maps, decided over the grid: the three row windows and the two output windows are at block
    (t, 0) at point t, every resident window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-! ## The input windows' blocks, by name and read at an entry -/

abbrev sBlk (c : Dev nD) (t : Fin cfg0.N) : Vec Ideal S512x256 .f32 := iblk m c 0 t
abbrev aBlk (c : Dev nD) (t : Fin cfg0.N) : Vec Ideal S512x64 .f32 := iblk m c 1 t
abbrev hBlk (c : Dev nD) (t : Fin cfg0.N) : Vec Ideal S512x512 .f32 := iblk m c 2 t
abbrev wsBlk (c : Dev nD) (t : Fin cfg0.N) : Vec Ideal S256x1536 .bf16 := iblk m c 3 t
abbrev waBlk (c : Dev nD) (t : Fin cfg0.N) : Vec Ideal S64x1536 .bf16 := iblk m c 4 t
abbrev whBlk (c : Dev nD) (t : Fin cfg0.N) : Vec Ideal S512x1536 .bf16 := iblk m c 5 t
abbrev biBlk (c : Dev nD) (t : Fin cfg0.N) : Vec Ideal S1x1536 .f32 := iblk m c 6 t
abbrev bhBlk (c : Dev nD) (t : Fin cfg0.N) : Vec Ideal S1x1536 .f32 := iblk m c 7 t
abbrev w1Blk (c : Dev nD) (t : Fin cfg0.N) : Vec Ideal S512x1024 .bf16 := iblk m c 8 t
abbrev b1Blk (c : Dev nD) (t : Fin cfg0.N) : Vec Ideal S1x1024 .f32 := iblk m c 9 t
abbrev w2Blk (c : Dev nD) (t : Fin cfg0.N) : Vec Ideal S1024x1024 .bf16 := iblk m c 10 t
abbrev b2Blk (c : Dev nD) (t : Fin cfg0.N) : Vec Ideal S1x1024 .f32 := iblk m c 11 t
abbrev w3Blk (c : Dev nD) (t : Fin cfg0.N) : Vec Ideal S1024x1 .bf16 := iblk m c 12 t
abbrev b3Blk (c : Dev nD) (t : Fin cfg0.N) : Vec Ideal S1x1 .f32 := iblk m c 13 t

/-- Block row r of the state window at point t is batch row 512 t + r of the state. -/
theorem sBlk_at (c : Dev nD) (t : Fin cfg0.N) (r : Fin 512) (q : Fin 256) :
    sBlk m c t (ix2 r q) = A0 m c (ix2 (batchRow t r) q) := by
  obtain ⟨⟨e0, e1⟩, -⟩ := idx_facts t
  unfold sBlk iblk
  rw [View.read_apply]
  show V m c main_arg0 (((cfg0.win 0).blk t).view.emb (ix2 r q)) = _
  rw [V_main_arg0 m c]
  show A0 m c _ = A0 m c _
  congr 1
  funext a
  apply Fin.ext
  match a with
  | ⟨0, _⟩ => show win0_0.index t (0 : Fin 2) * 512 + 1 * r.val = 512 * t.val + r.val; rw [e0]; omega
  | ⟨1, _⟩ => show win0_0.index t (1 : Fin 2) * 256 + 1 * q.val = q.val; rw [e1]; omega

/-- Block row r of the action window at point t is batch row 512 t + r of the action. -/
theorem aBlk_at (c : Dev nD) (t : Fin cfg0.N) (r : Fin 512) (q : Fin 64) :
    aBlk m c t (ix2 r q) = A1 m c (ix2 (batchRow t r) q) := by
  obtain ⟨-, ⟨e0, e1⟩, -⟩ := idx_facts t
  unfold aBlk iblk
  rw [View.read_apply]
  show V m c main_arg1 (((cfg0.win 1).blk t).view.emb (ix2 r q)) = _
  rw [V_main_arg1 m c]
  show A1 m c _ = A1 m c _
  congr 1
  funext a
  apply Fin.ext
  match a with
  | ⟨0, _⟩ => show win0_1.index t (0 : Fin 2) * 512 + 1 * r.val = 512 * t.val + r.val; rw [e0]; omega
  | ⟨1, _⟩ => show win0_1.index t (1 : Fin 2) * 64 + 1 * q.val = q.val; rw [e1]; omega

/-- Block row r of the hidden window at point t is batch row 512 t + r of the hidden array's slab. -/
theorem hBlk_at (c : Dev nD) (t : Fin cfg0.N) (r : Fin 512) (q : Fin 512) :
    hBlk m c t (ix2 r q) = A2 m c (ix3 (0 : Fin 1) (batchRow t r) q) := by
  obtain ⟨-, -, ⟨e0, e1⟩, -⟩ := idx_facts t
  unfold hBlk iblk
  rw [View.read_apply]
  show V m c main_v0 (((cfg0.win 2).blk t).view.emb (ix2 r q)) = _
  refine Eq.trans (congrArg (V m c main_v0 : S65536x512.Idx → EReal) ?_) (hidden2d_at m c (batchRow t r) q)
  funext a
  apply Fin.ext
  match a with
  | ⟨0, _⟩ => show win0_2.index t (0 : Fin 2) * 512 + 1 * r.val = 512 * t.val + r.val; rw [e0]; omega
  | ⟨1, _⟩ => show win0_2.index t (1 : Fin 2) * 512 + 1 * q.val = q.val; rw [e1]; omega

/-- The resident block of the state's input weights is the whole prepared array. -/
theorem wsBlk_at (c : Dev nD) (t : Fin cfg0.N) (q : Fin 256) (k : Fin 1536) :
    wsBlk m c t (ix2 q k) = Cert.Spec.wInS (A3 m c) q k := by
  obtain ⟨-, -, -, ⟨e0, e1⟩, -⟩ := idx_facts t
  unfold wsBlk iblk
  rw [View.read_apply]
  show V m c main_v3 (((cfg0.win 3).blk t).view.emb (ix2 q k)) = _
  refine Eq.trans (congrArg (V m c main_v3 : S256x1536.Idx → EReal) ?_) (wInS_at m c q k)
  funext a
  apply Fin.ext
  match a with
  | ⟨0, _⟩ => show win0_3.index t (0 : Fin 2) * 256 + 1 * (q : Fin 256).val = (q : Fin 256).val; rw [e0]; omega
  | ⟨1, _⟩ => show win0_3.index t (1 : Fin 2) * 1536 + 1 * (k : Fin 1536).val = (k : Fin 1536).val; rw [e1]; omega

/-- The resident block of the action's input weights is the whole prepared array. -/
theorem waBlk_at (c : Dev nD) (t : Fin cfg0.N) (q : Fin 64) (k : Fin 1536) :
    waBlk m c t (ix2 q k) = Cert.Spec.wInA (A3 m c) q k := by
  obtain ⟨-, -, -, -, ⟨e0, e1⟩, -⟩ := idx_facts t
  unfold waBlk iblk
  rw [View.read_apply]
  show V m c main_v4 (((cfg0.win 4).blk t).view.emb (ix2 q k)) = _
  refine Eq.trans (congrArg (V m c main_v4 : S64x1536.Idx → EReal) ?_) (wInA_at m c q k)
  funext a
  apply Fin.ext
  match a with
  | ⟨0, _⟩ => show win0_4.index t (0 : Fin 2) * 64 + 1 * (q : Fin 64).val = (q : Fin 64).val; rw [e0]; omega
  | ⟨1, _⟩ => show win0_4.index t (1 : Fin 2) * 1536 + 1 * (k : Fin 1536).val = (k : Fin 1536).val; rw [e1]; omega

/-- The resident block of the hidden weights is the whole prepared array. -/
theorem whBlk_at (c : Dev nD) (t : Fin cfg0.N) (q : Fin 512) (k : Fin 1536) :
    whBlk m c t (ix2 q k) = Cert.Spec.wHid (A4 m c) q k := by
  obtain ⟨-, -, -, -, -, ⟨e0, e1⟩, -⟩ := idx_facts t
  unfold whBlk iblk
  rw [View.read_apply]
  show V m c main_v6 (((cfg0.win 5).blk t).view.emb (ix2 q k)) = _
  refine Eq.trans (congrArg (V m c main_v6 : S512x1536.Idx → EReal) ?_) (wHid_at m c q k)
  funext a
  apply Fin.ext
  match a with
  | ⟨0, _⟩ => show win0_5.index t (0 : Fin 2) * 512 + 1 * (q : Fin 512).val = (q : Fin 512).val; rw [e0]; omega
  | ⟨1, _⟩ => show win0_5.index t (1 : Fin 2) * 1536 + 1 * (k : Fin 1536).val = (k : Fin 1536).val; rw [e1]; omega

/-- The resident block of the first layer's weights is the whole prepared array. -/
theorem w1Blk_at (c : Dev nD) (t : Fin cfg0.N) (q : Fin 512) (j : Fin 1024) :
    w1Blk m c t (ix2 q j) = Cert.Spec.w1 (A7 m c) q j := by
  obtain ⟨-, -, -, -, -, -, -, -, ⟨e0, e1⟩, -⟩ := idx_facts t
  unfold w1Blk iblk
  rw [View.read_apply]
  show V m c main_v8 (((cfg0.win 8).blk t).view.emb (ix2 q j)) = _
  refine Eq.trans (congrArg (V m c main_v8 : S512x1024.Idx → EReal) ?_) (w1_at m c q j)
  funext a
  apply Fin.ext
  match a with
  | ⟨0, _⟩ => show win0_8.index t (0 : Fin 2) * 512 + 1 * (q : Fin 512).val = (q : Fin 512).val; rw [e0]; omega
  | ⟨1, _⟩ => show win0_8.index t (1 : Fin 2) * 1024 + 1 * (j : Fin 1024).val = (j : Fin 1024).val; rw [e1]; omega

/-- The resident block of the second layer's weights is the whole prepared array. -/
theorem w2Blk_at (c : Dev nD) (t : Fin cfg0.N) (q : Fin 1024) (j : Fin 1024) :
    w2Blk m c t (ix2 q j) = Cert.Spec.w2 (A9 m c) q j := by
  obtain ⟨-, -, -, -, -, -, -, -, -, -, ⟨e0, e1⟩, -⟩ := idx_facts t
  unfold w2Blk iblk
  rw [View.read_apply]
  show V m c main_v10 (((cfg0.win 10).blk t).view.emb (ix2 q j)) = _
  refine Eq.trans (congrArg (V m c main_v10 : S1024x1024.Idx → EReal) ?_) (w2_at m c q j)
  funext a
  apply Fin.ext
  match a with
  | ⟨0, _⟩ => show win0_10.index t (0 : Fin 2) * 1024 + 1 * (q : Fin 1024).val = (q : Fin 1024).val; rw [e0]; omega
  | ⟨1, _⟩ => show win0_10.index t (1 : Fin 2) * 1024 + 1 * (j : Fin 1024).val = (j : Fin 1024).val; rw [e1]; omega

/-- The resident block of the input bias is the whole prepared row. -/
theorem biBlk_at (c : Dev nD) (t : Fin cfg0.N) (k : Fin 1536) :
    biBlk m c t (ix2 (0 : Fin 1) k) = Cert.Spec.bIn (A5 m c) k := by
  obtain ⟨-, -, -, -, -, -, ⟨e0, e1⟩, -⟩ := idx_facts t
  unfold biBlk iblk
  rw [View.read_apply]
  show V m c main_v13 (((cfg0.win 6).blk t).view.emb (ix2 (0 : Fin 1) k)) = _
  refine Eq.trans (congrArg (V m c main_v13 : S1x1536.Idx → EReal) ?_) (bIn_at m c k)
  funext a
  apply Fin.ext
  match a with
  | ⟨0, _⟩ => show win0_6.index t (0 : Fin 2) * 1 + 1 * 0 = 0; rw [e0]
  | ⟨1, _⟩ => show win0_6.index t (1 : Fin 2) * 1536 + 1 * k.val = k.val; rw [e1]; omega

/-- The resident block of the hidden bias is the whole prepared row. -/
theorem bhBlk_at (c : Dev nD) (t : Fin cfg0.N) (k : Fin 1536) :
    bhBlk m c t (ix2 (0 : Fin 1) k) = Cert.Spec.bHid (A6 m c) k := by
  obtain ⟨-, -, -, -, -, -, -, ⟨e0, e1⟩, -⟩ := idx_facts t
  unfold bhBlk iblk
  rw [View.read_apply]
  show V m c main_v14 (((cfg0.win 7).blk t).view.emb (ix2 (0 : Fin 1) k)) = _
  refine Eq.trans (congrArg (V m c main_v14 : S1x1536.Idx → EReal) ?_) (bHid_at m c k)
  funext a
  apply Fin.ext
  match a with
  | ⟨0, _⟩ => show win0_7.index t (0 : Fin 2) * 1 + 1 * 0 = 0; rw [e0]
  | ⟨1, _⟩ => show win0_7.index t (1 : Fin 2) * 1536 + 1 * k.val = k.val; rw [e1]; omega

/-- The resident block of the first layer's bias is the whole prepared row. -/
theorem b1Blk_at (c : Dev nD) (t : Fin cfg0.N) (k : Fin 1024) :
    b1Blk m c t (ix2 (0 : Fin 1) k) = Cert.Spec.b1 (A8 m c) k := by
  obtain ⟨-, -, -, -, -, -, -, -, -, ⟨e0, e1⟩, -⟩ := idx_facts t
  unfold b1Blk iblk
  rw [View.read_apply]
  show V m c main_v15 (((cfg0.win 9).blk t).view.emb (ix2 (0 : Fin 1) k)) = _
  refine Eq.trans (congrArg (V m c main_v15 : S1x1024.Idx → EReal) ?_) (b1_at m c k)
  funext a
  apply Fin.ext
  match a with
  | ⟨0, _⟩ => show win0_9.index t (0 : Fin 2) * 1 + 1 * 0 = 0; rw [e0]
  | ⟨1, _⟩ => show win0_9.index t (1 : Fin 2) * 1024 + 1 * k.val = k.val; rw [e1]; omega

/-- The resident block of the second layer's bias is the whole prepared row. -/
theorem b2Blk_at (c : Dev nD) (t : Fin cfg0.N) (k : Fin 1024) :
    b2Blk m c t (ix2 (0 : Fin 1) k) = Cert.Spec.b2 (A10 m c) k := by
  obtain ⟨-, -, -, -, -, -, -, -, -, -, -, ⟨e0, e1⟩, -⟩ := idx_facts t
  unfold b2Blk iblk
  rw [View.read_apply]
  show V m c main_v16 (((cfg0.win 11).blk t).view.emb (ix2 (0 : Fin 1) k)) = _
  refine Eq.trans (congrArg (V m c main_v16 : S1x1024.Idx → EReal) ?_) (b2_at m c k)
  funext a
  apply Fin.ext
  match a with
  | ⟨0, _⟩ => show win0_11.index t (0 : Fin 2) * 1 + 1 * 0 = 0; rw [e0]
  | ⟨1, _⟩ => show win0_11.index t (1 : Fin 2) * 1024 + 1 * k.val = k.val; rw [e1]; omega

/-- The resident block of the last layer's weights is the whole prepared column. -/
theorem w3Blk_at (c : Dev nD) (t : Fin cfg0.N) (q : Fin 1024) :
    w3Blk m c t (ix2 q (0 : Fin 1)) = Cert.Spec.w3 (A11 m c) q := by
  obtain ⟨-, -, -, -, -, -, -, -, -, -, -, -, ⟨e0, e1⟩, -⟩ := idx_facts t
  unfold w3Blk iblk
  rw [View.read_apply]
  show V m c main_v12 (((cfg0.win 12).blk t).view.emb (ix2 q (0 : Fin 1))) = _
  refine Eq.trans (congrArg (V m c main_v12 : S1024x1.Idx → EReal) ?_) (w3_at m c q)
  funext a
  apply Fin.ext
  match a with
  | ⟨0, _⟩ => show win0_12.index t (0 : Fin 2) * 1024 + 1 * q.val = q.val; rw [e0]; omega
  | ⟨1, _⟩ => show win0_12.index t (1 : Fin 2) * 1 + 1 * 0 = 0; rw [e1]

/-- The resident block of the last layer's bias is the prepared one-entry array. -/
theorem b3Blk_at (c : Dev nD) (t : Fin cfg0.N) :
    b3Blk m c t (ix2 (0 : Fin 1) (0 : Fin 1)) = Cert.Spec.b3 (A12 m c) := by
  obtain ⟨-, -, -, -, -, -, -, -, -, -, -, -, -, ⟨e0, e1⟩, -⟩ := idx_facts t
  unfold b3Blk iblk
  rw [View.read_apply]
  show V m c main_v17 (((cfg0.win 13).blk t).view.emb (ix2 (0 : Fin 1) (0 : Fin 1))) = _
  refine Eq.trans (congrArg (V m c main_v17 : S1x1.Idx → EReal) ?_) (b3_at m c)
  funext a
  apply Fin.ext
  match a with
  | ⟨0, _⟩ => show win0_13.index t (0 : Fin 2) * 1 + 1 * 0 = 0; rw [e0]
  | ⟨1, _⟩ => show win0_13.index t (1 : Fin 2) * 1 + 1 * 0 = 0; rw [e1]

/-! ## What a point writes back -/

theorem hz : (![0, 0] : Fin 2 → Nat) = fun _ => 0 := funext fun a => by fin_cases a <;> rfl

/-- The specification's next hidden state at this core's arguments. -/
abbrev hiddenG (c : Dev nD) : S65536x512.Idx → EReal := Cert.Spec.hiddenArr (A0 m c) (A1 m c) (A2 m c) (A3 m c) (A4 m c) (A5 m c) (A6 m c)

/-- The specification's numbers at this core's arguments. -/
abbrev qG (c : Dev nD) : S65536x1.Idx → EReal := Cert.Spec.qArr (A0 m c) (A1 m c) (A2 m c) (A3 m c) (A4 m c) (A5 m c) (A6 m c) (A7 m c) (A8 m c) (A9 m c) (A10 m c) (A11 m c) (A12 m c)

/-- Point t writes back, to the hidden result, rows 512 t … 512 t + 511 of the specification's next hidden state. -/
theorem flushedHidden_eq (c : Dev nD) (t : Fin cfg0.N) :
    (dats m 0 c).flushed 15 t = ((cfg0.win 15).blk t).view.read (Elt Ideal) (hiddenG m c) := by
  obtain ⟨-, -, -, -, -, -, -, -, -, -, -, -, -, -, -, ⟨e0, e1⟩⟩ := idx_facts t
  show (cfg0.win 15).cut (grid0.coords t) ((dats m 0 c).after 15 t) = _
  rw [after0_15]
  unfold out0_15
  rw [View.canon_unit_zero hz]
  simp only [View.ld_unit_zero (S := S512x256) hz, View.ld_unit_zero (S := S512x64) hz, View.ld_unit_zero (S := S512x512) hz, View.ld_unit_zero (S := S256x1536) hz, View.ld_unit_zero (S := S64x1536) hz, View.ld_unit_zero (S := S1x1536) hz, View.ld_unit_zero (S := S512x1536) hz, View.ld_unit_zero (S := S512x1024) hz, View.ld_unit_zero (S := S1x1024) hz, View.ld_unit_zero (S := S1024x1024) hz, View.ld_unit_zero (S := S1024x1) hz, View.ld_unit_zero (S := S1x1) hz]
  funext y
  obtain ⟨r, j, rfl⟩ : ∃ (r : Fin 512) (j : Fin 512), y = ix2 r j := ⟨y 0, y 1, eq_ix2 y⟩
  rw [View.read_apply]
  have hemb : ((cfg0.win 15).blk t).view.emb (ix2 r j) = ix2 (batchRow t r) j := by
    funext a
    apply Fin.ext
    match a with
    | ⟨0, _⟩ => show win0_15.index t (0 : Fin 2) * 512 + 1 * r.val = 512 * t.val + r.val; rw [e0]; omega
    | ⟨1, _⟩ => show win0_15.index t (1 : Fin 2) * 512 + 1 * j.val = j.val; rw [e1]; omega
  rw [hemb]
  show k0_pay1 (F := Ideal) (k0_pay3 (hBlk m c t))
      (k0_pay6 (sBlk m c t) (aBlk m c t) (hBlk m c t) (wsBlk m c t) (waBlk m c t) (biBlk m c t) (whBlk m c t) (bhBlk m c t))
      (k0_pay7 (sBlk m c t) (aBlk m c t) (hBlk m c t) (wsBlk m c t) (waBlk m c t) (biBlk m c t) (whBlk m c t) (bhBlk m c t))
      (k0_pay8 (F := Ideal)) (ix2 r j)
    = Cert.Spec.hiddenAt (A0 m c) (A1 m c) (A2 m c) (A3 m c) (A4 m c) (A5 m c) (A6 m c) (batchRow t r) j
  rw [Cert.KernelIdeal.Payload.hidden_at]
  unfold Cert.Spec.hiddenAt Cert.Spec.stateRow Cert.Spec.actionRow Cert.Spec.hiddenRow
  simp only [sBlk_at, aBlk_at, hBlk_at, wsBlk_at, waBlk_at, whBlk_at, biBlk_at, bhBlk_at]

/-- Point t writes back, to the first result, the specification's numbers for rows 512 t … 512 t + 511. -/
theorem flushedQ_eq (c : Dev nD) (t : Fin cfg0.N) :
    (dats m 0 c).flushed 14 t = ((cfg0.win 14).blk t).view.read (Elt Ideal) (qG m c) := by
  obtain ⟨-, -, -, -, -, -, -, -, -, -, -, -, -, -, ⟨e0, e1⟩, -⟩ := idx_facts t
  show (cfg0.win 14).cut (grid0.coords t) ((dats m 0 c).after 14 t) = _
  rw [after0_14]
  unfold out0_14
  rw [View.canon_unit_zero hz]
  simp only [View.ld_unit_zero (S := S512x256) hz, View.ld_unit_zero (S := S512x64) hz, View.ld_unit_zero (S := S512x512) hz, View.ld_unit_zero (S := S256x1536) hz, View.ld_unit_zero (S := S64x1536) hz, View.ld_unit_zero (S := S1x1536) hz, View.ld_unit_zero (S := S512x1536) hz, View.ld_unit_zero (S := S512x1024) hz, View.ld_unit_zero (S := S1x1024) hz, View.ld_unit_zero (S := S1024x1024) hz, View.ld_unit_zero (S := S1024x1) hz, View.ld_unit_zero (S := S1x1) hz]
  funext y
  obtain ⟨r, z, rfl⟩ : ∃ (r : Fin 512) (z : Fin 1), y = ix2 r z := ⟨y 0, y 1, eq_ix2 y⟩
  obtain rfl : z = 0 := Subsingleton.elim _ _
  rw [View.read_apply]
  have hemb : ((cfg0.win 14).blk t).view.emb (ix2 r (0 : Fin 1)) = ix2 (batchRow t r) (0 : Fin 1) := by
    funext a
    apply Fin.ext
    match a with
    | ⟨0, _⟩ => show win0_14.index t (0 : Fin 2) * 512 + 1 * r.val = 512 * t.val + r.val; rw [e0]; omega
    | ⟨1, _⟩ => show win0_14.index t (1 : Fin 2) * 1 + 1 * 0 = 0; rw [e1]
  rw [hemb]
  show k0_pay2 (F := Ideal) (k0_pay3 (hBlk m c t))
      (k0_pay6 (sBlk m c t) (aBlk m c t) (hBlk m c t) (wsBlk m c t) (waBlk m c t) (biBlk m c t) (whBlk m c t) (bhBlk m c t))
      (k0_pay7 (sBlk m c t) (aBlk m c t) (hBlk m c t) (wsBlk m c t) (waBlk m c t) (biBlk m c t) (whBlk m c t) (bhBlk m c t))
      (k0_pay8 (F := Ideal)) (w1Blk m c t) (b1Blk m c t) (w2Blk m c t) (b2Blk m c t) (w3Blk m c t) (b3Blk m c t) (ix2 r (0 : Fin 1))
    = Cert.Spec.qAt (A0 m c) (A1 m c) (A2 m c) (A3 m c) (A4 m c) (A5 m c) (A6 m c) (A7 m c) (A8 m c) (A9 m c) (A10 m c) (A11 m c) (A12 m c) (batchRow t r)
  rw [Cert.KernelIdeal.Payload.q_at]
  unfold Cert.Spec.qAt Cert.Spec.stateRow Cert.Spec.actionRow Cert.Spec.hiddenRow
  simp only [sBlk_at, aBlk_at, hBlk_at, wsBlk_at, waBlk_at, whBlk_at, biBlk_at, bhBlk_at, w1Blk_at, b1Blk_at, w2Blk_at, b2Blk_at,
    w3Blk_at, b3Blk_at]

/-! ## The blocks tile the output arrays -/

/-- An index of the hidden result is in point t's block iff its row is among rows 512 t … 512 t + 511. -/
theorem mem_blkHidden (t : Fin cfg0.N) (i : S65536x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v18_1).slice (win0_15.rect t)).set ↔ _
  rw [View.set_slice_whole, Rect.mem_set_unit]
  exact Iff.rfl

/-- An index of the first result is in point t's block iff its row is among rows 512 t … 512 t + 511. -/
theorem mem_blkQ (t : Fin cfg0.N) (i : S65536x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v18_0).slice (win0_14.rect t)).set ↔ _
  rw [View.set_slice_whole, Rect.mem_set_unit]
  exact Iff.rfl

/-- The point whose block holds batch row `n`. -/
def pointOf (n : Nat) (hn : n < 65536) : Fin cfg0.N := ⟨n / 512, by rw [show cfg0.N = 128 from N_0]; omega⟩

/-- The hidden result ends as the specification's next hidden state: every row is in the block of the point
    row / 512, which writes back the specification's rows. -/
theorem finalHidden (c : Dev nD) : (dats m 0 c).arrAt 15 cfg0.N = hiddenG m c :=
  (dats m 0 c).arrAt_eq_of_cover 15 (hiddenG m c) (fun t _ => flushedHidden_eq m c t) fun i => by
    have hi0 : (i 0).val < 65536 := idx2_lt0 i
    have hi1 : (i 1).val < 512 := idx2_lt1 i
    refine ⟨pointOf (i 0).val hi0, flush0_15 _, ?_⟩
    obtain ⟨-, -, -, -, -, -, -, -, -, -, -, -, -, -, -, ⟨e0, e1⟩⟩ := idx_facts (pointOf (i 0).val hi0)
    have ht : (pointOf (i 0).val hi0).val = (i 0).val / 512 := rfl
    rw [mem_blkHidden]
    intro a
    match a with
    | ⟨0, _⟩ =>
      show win0_15.index (pointOf (i 0).val hi0) (0 : Fin 2) * 512 ≤ (i 0).val ∧ (i 0).val < win0_15.index (pointOf (i 0).val hi0) (0 : Fin 2) * 512 + 512
      rw [e0, ht]; omega
    | ⟨1, _⟩ =>
      show win0_15.index (pointOf (i 0).val hi0) (1 : Fin 2) * 512 ≤ (i 1).val ∧ (i 1).val < win0_15.index (pointOf (i 0).val hi0) (1 : Fin 2) * 512 + 512
      rw [e1]; omega

/-- The first result ends as the specification's numbers. -/
theorem finalQ (c : Dev nD) : (dats m 0 c).arrAt 14 cfg0.N = qG m c :=
  (dats m 0 c).arrAt_eq_of_cover 14 (qG m c) (fun t _ => flushedQ_eq m c t) fun i => by
    have hi0 : (i 0).val < 65536 := idx2_lt0 i
    have hi1 : (i 1).val < 1 := idx2_lt1 i
    refine ⟨pointOf (i 0).val hi0, flush0_14 _, ?_⟩
    obtain ⟨-, -, -, -, -, -, -, -, -, -, -, -, -, -, ⟨e0, e1⟩, -⟩ := idx_facts (pointOf (i 0).val hi0)
    have ht : (pointOf (i 0).val hi0).val = (i 0).val / 512 := rfl
    rw [mem_blkQ]
    intro a
    match a with
    | ⟨0, _⟩ =>
      show win0_14.index (pointOf (i 0).val hi0) (0 : Fin 2) * 512 ≤ (i 0).val ∧ (i 0).val < win0_14.index (pointOf (i 0).val hi0) (0 : Fin 2) * 512 + 512
      rw [e0, ht]; omega
    | ⟨1, _⟩ =>
      show win0_14.index (pointOf (i 0).val hi0) (1 : Fin 2) * 1 ≤ (i 1).val ∧ (i 1).val < win0_14.index (pointOf (i 0).val hi0) (1 : Fin 2) * 1 + 1
      rw [e1]; omega

/-! ## The host operation after the call, and the run -/

/-- The specification's next hidden state given a leading unit axis. -/
abbrev hiddenOut (c : Dev nD) : S1x65536x512.Idx → EReal :=
  broadcastInDim S1x65536x512 ![1, 2] bcast_S65536x512_S1x65536x512_1_2 (hiddenG m c)

/-- The second result: the hidden result array given its leading unit axis. -/
theorem tailHidden (c : Dev nD) :
    Pipeline.afterTail₀ cfgs (dats m) 0 (V0 m) [hostOps1] c main_v19 = hiddenOut m c := by
  unfold Pipeline.afterTail₀
  show StableHlo.after hostOps1 _ (Proc.devRef .tc main_v19) = _
  after_results
  exact congrArg (broadcastInDim S1x65536x512 ![1, 2] bcast_S65536x512_S1x65536x512_1_2)
    ((Pipeline.withArrays_arr spec0 launch0.win.arr_inj c (V0 m c) (fun w => (dats m 0 c).arrAt w cfg0.N) 15).trans (finalHidden m c))

/-- Every weakly fair execution of the kernel program terminates with the first result at the specification's
    numbers, the second at the specification's next hidden state with a leading unit axis, the arguments unchanged. -/
theorem run : θ_run defs (onTc (τ := τ) (main (F := Ideal))) ⟨m, fun _ => 0, ρ⟩ fun r => ∀ c : Dev nD,
      r.2.mem ((c.tc : Thread nD τ).loc main_v18_0) = qG m c
      ∧ r.2.mem ((c.tc : Thread nD τ).loc main_v19) = hiddenOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 14).trans (finalQ m c),
      ((h c).2 main_v19 (Pipeline.mem_restRefs_of main_v19 (by decide) (by decide))).trans (tailHidden m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Arrays

end
-- ==== Proof.RefValue.lean ====
/-
  The reference's two results are the specification's arrays.

  The reference joins the state and action matrices along the columns and multiplies the joined matrix with the
  transposed input weights: a sum over 320 columns, which splits into the sum over the first 256 (the state's) and the
  sum over the last 64 (the action's). Its logistic function is spelt as the quotient 1 / (1 + exp (-x)). Everything
  else is the specification's text read one operation at a time.
-/
import proofs.«131729_j57406532878787_1_alg».proof.Proof.Gen.ReferenceIdeal.Read
import proofs.«131729_j57406532878787_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable (x0 : (⟨S65536x256, .f32⟩ : BufTy).Contents (Elt Ideal)) (x1 : (⟨S65536x64, .f32⟩ : BufTy).Contents (Elt Ideal))
  (x2 : (⟨S1x65536x512, .f32⟩ : BufTy).Contents (Elt Ideal)) (x3 : (⟨S1536x320, .f32⟩ : BufTy).Contents (Elt Ideal))
  (x4 : (⟨S1536x512, .f32⟩ : BufTy).Contents (Elt Ideal)) (x5 x6 : (⟨S1536, .f32⟩ : BufTy).Contents (Elt Ideal))
  (x7 : (⟨S1024x512, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))
  (x11 : (⟨S1x1024, .f32⟩ : BufTy).Contents (Elt Ideal)) (x12 : (⟨S1, .f32⟩ : BufTy).Contents (Elt Ideal))

/-! ## The joined matrix and the split of its product -/

/-- The joined matrix at a column below 256 is the state matrix there. -/
theorem joined_left (i : Fin 65536) (q : Fin 256) :
    val_main_v0 (F := Ideal) x0 x1 (ix2 i (⟨q.val, by omega⟩ : Fin 320)) = x0 (ix2 i q) := by
  unfold val_main_v0
  refine concatenate_pair_apply_left (1 : Fin S65536x320.rank) x0 x1
    Gen.concatenates_S65536x256_S65536x64_S65536x320_d1 (ix2 i (⟨q.val, by omega⟩ : Fin 320)) rfl (ix2 i q) ?_
  intro b
  match b with
  | ⟨0, _⟩ => rfl
  | ⟨1, _⟩ => rfl

/-- The joined matrix at column `256 + q` is the action matrix at column `q`. -/
theorem joined_right (i : Fin 65536) (q : Fin 64) :
    val_main_v0 (F := Ideal) x0 x1 (ix2 i (⟨256 + q.val, by omega⟩ : Fin 320)) = x1 (ix2 i q) := by
  unfold val_main_v0
  refine concatenate_pair_apply_right (1 : Fin S65536x320.rank) x0 x1
    Gen.concatenates_S65536x256_S65536x64_S65536x320_d1 (ix2 i (⟨256 + q.val, by omega⟩ : Fin 320)) rfl rfl (ix2 i q) ?_ ?_
  · intro b hb
    match b, hb with
    | ⟨0, _⟩, _ => rfl
    | ⟨1, _⟩, hb => exact absurd rfl hb
  · show q.val + 256 = 256 + q.val
    omega

/-- A sum over 320 columns is the sum over the first 256 plus the sum over the last 64. -/
theorem sum_split (f : Fin 320 → EReal) :
    ∑ k : Fin 320, f k
      = ∑ q : Fin 256, f (⟨q.val, by omega⟩ : Fin 320) + ∑ q : Fin 64, f (⟨256 + q.val, by omega⟩ : Fin 320) :=
  Fin.sum_univ_add (a := 256) (b := 64) f

/-! ## Indices by coordinates -/

theorem lidx_v3 (i : Fin 65536) (c : Fin 1536) (k : Fin 320) : lidx_main_v3 (ix2 i c) k = ix2 i k :=
  funext fun a => match a with | ⟨0, _⟩ => rfl | ⟨1, _⟩ => rfl
theorem ridx_v3 (i : Fin 65536) (c : Fin 1536) (k : Fin 320) :
    idx_main_v2 (ridx_main_v3 (ix2 i c) k) = ix2 c k :=
  funext fun a => match a with | ⟨0, _⟩ => rfl | ⟨1, _⟩ => rfl
theorem idx_v5 (i : Fin 65536) (c : Fin 1536) : idx_main_v4 (idx_main_v5 (ix2 i c)) = ix1 c :=
  funext fun a => match a with | ⟨0, _⟩ => rfl
theorem lidx_v8 (i : Fin 65536) (c : Fin 1536) (k : Fin 512) : lidx_main_v8 (ix2 i c) k = ix2 i k :=
  funext fun a => match a with | ⟨0, _⟩ => rfl | ⟨1, _⟩ => rfl
theorem ridx_v8 (i : Fin 65536) (c : Fin 1536) (k : Fin 512) :
    idx_main_v7 (ridx_main_v8 (ix2 i c) k) = ix2 c k :=
  funext fun a => match a with | ⟨0, _⟩ => rfl | ⟨1, _⟩ => rfl
theorem idx_v10 (i : Fin 65536) (c : Fin 1536) : idx_main_v9 (idx_main_v10 (ix2 i c)) = ix1 c :=
  funext fun a => match a with | ⟨0, _⟩ => rfl

/-! ## The two gate pre-activations -/

/-- The product of the joined matrix with the transposed input weights, split at column 256. -/
theorem v3_at (i : Fin 65536) (c : Fin 1536) :
    val_main_v3 (F := Ideal) x0 x1 x3 (ix2 i c)
      = ∑ q : Fin 256, Cert.Spec.stateRow x0 i q * Cert.Spec.wInS x3 q c
        + ∑ q : Fin 64, Cert.Spec.actionRow x1 i q * Cert.Spec.wInA x3 q c := by
  rw [val_main_v3_apply, sum_split]
  congr 1
  · refine Finset.sum_congr rfl fun q _ => ?_
    rw [val_main_v2_apply, lidx_v3, ridx_v3, joined_left]
    rfl
  · refine Finset.sum_congr rfl fun q _ => ?_
    rw [val_main_v2_apply, lidx_v3, ridx_v3, joined_right]
    rfl

/-- The broadcast input bias at any row is the bias. -/
theorem v5_at (i : Fin 65536) (c : Fin 1536) :
    val_main_v5 (F := Ideal) x5 (ix2 i c) = Cert.Spec.bIn x5 c := by
  rw [val_main_v5_apply, val_main_v4_apply, idx_v5]
  rfl

/-- The gates' pre-activation from the inputs. -/
theorem v6_at (i : Fin 65536) (c : Fin 1536) :
    val_main_v6 (F := Ideal) x0 x1 x3 x5 (ix2 i c)
      = Cert.Spec.gateIn (Cert.Spec.stateRow x0 i) (Cert.Spec.actionRow x1 i) (Cert.Spec.wInS x3) (Cert.Spec.wInA x3)
          (Cert.Spec.bIn x5) c := by
  rw [val_main_v6_apply, v3_at, v5_at]
  rfl

/-- The hidden array without its leading unit axis, at row `i`. -/
theorem v1_at (i : Fin 65536) (q : Fin 512) :
    val_main_v1 (F := Ideal) x2 (ix2 i q) = Cert.Spec.hiddenRow x2 i q := by
  rw [val_main_v1_apply]
  show x2 _ = x2 (ix3 (0 : Fin 1) i q)
  congr 1
  funext a
  match a with
  | ⟨0, _⟩ => rfl
  | ⟨1, _⟩ =>
    apply Fin.ext
    show (i.val * 512 + q.val) / 512 % 65536 = i.val
    have := i.isLt; have := q.isLt; omega
  | ⟨2, _⟩ =>
    apply Fin.ext
    show (i.val * 512 + q.val) % 512 = q.val
    have := i.isLt; have := q.isLt; omega

/-- The product of the hidden rows with the transposed hidden weights. -/
theorem v8_at (i : Fin 65536) (c : Fin 1536) :
    val_main_v8 (F := Ideal) x2 x4 (ix2 i c)
      = ∑ q : Fin 512, Cert.Spec.hiddenRow x2 i q * Cert.Spec.wHid x4 q c := by
  rw [val_main_v8_apply]
  refine Finset.sum_congr rfl fun q _ => ?_
  rw [val_main_v7_apply, lidx_v8, ridx_v8, v1_at]
  rfl

/-- The broadcast hidden bias at any row is the bias. -/
theorem v10_at (i : Fin 65536) (c : Fin 1536) :
    val_main_v10 (F := Ideal) x6 (ix2 i c) = Cert.Spec.bHid x6 c := by
  rw [val_main_v10_apply, val_main_v9_apply, idx_v10]
  rfl

/-- The gates' pre-activation from the hidden row. -/
theorem v11_at (i : Fin 65536) (c : Fin 1536) :
    val_main_v11 (F := Ideal) x2 x4 x6 (ix2 i c)
      = Cert.Spec.gateHid (Cert.Spec.hiddenRow x2 i) (Cert.Spec.wHid x4) (Cert.Spec.bHid x6) c := by
  rw [val_main_v11_apply, v8_at, v10_at]
  rfl

/-! ## The three thirds of the gate columns -/

theorem idx_v12 (i : Fin 65536) (j : Fin 512) : idx_main_v12 (ix2 i j) = ix2 i (Cert.Spec.colR j) :=
  funext fun a => match a with | ⟨0, _⟩ => rfl | ⟨1, _⟩ => rfl
theorem idx_v13 (i : Fin 65536) (j : Fin 512) : idx_main_v13 (ix2 i j) = ix2 i (Cert.Spec.colZ j) :=
  funext fun a => match a with | ⟨0, _⟩ => rfl | ⟨1, _⟩ => rfl
theorem idx_v14 (i : Fin 65536) (j : Fin 512) : idx_main_v14 (ix2 i j) = ix2 i (Cert.Spec.colN j) :=
  funext fun a => match a with | ⟨0, _⟩ => rfl | ⟨1, _⟩ => rfl
theorem idx_v15 (i : Fin 65536) (j : Fin 512) : idx_main_v15 (ix2 i j) = ix2 i (Cert.Spec.colR j) :=
  funext fun a => match a with | ⟨0, _⟩ => rfl | ⟨1, _⟩ => rfl
theorem idx_v16 (i : Fin 65536) (j : Fin 512) : idx_main_v16 (ix2 i j) = ix2 i (Cert.Spec.colZ j) :=
  funext fun a => match a with | ⟨0, _⟩ => rfl | ⟨1, _⟩ => rfl
theorem idx_v17 (i : Fin 65536) (j : Fin 512) : idx_main_v17 (ix2 i j) = ix2 i (Cert.Spec.colN j) :=
  funext fun a => match a with | ⟨0, _⟩ => rfl | ⟨1, _⟩ => rfl

/-! ## The gated recurrent cell, one entry at a time -/

/-- The reset gate: the quotient spelling of the logistic function at the first third's sum. -/
theorem v24_at (i : Fin 65536) (j : Fin 512) :
    val_main_v24 (F := Ideal) x0 x1 x2 x3 x4 x5 x6 (ix2 i j)
      = Cert.Spec.reset (Cert.Spec.stateRow x0 i) (Cert.Spec.actionRow x1 i) (Cert.Spec.hiddenRow x2 i)
          (Cert.Spec.wInS x3) (Cert.Spec.wInA x3) (Cert.Spec.wHid x4) (Cert.Spec.bIn x5) (Cert.Spec.bHid x6) j := by
  rw [val_main_v24_apply, val_main_v23_apply, val_main_v22_apply, val_main_v21_apply, val_main_v20_apply,
    val_main_v19_apply, val_main_v18_apply, val_main_v12_apply, val_main_v15_apply, idx_v12, idx_v15, v6_at, v11_at]
  exact Cert.Spec.logistic_eq _

/-- The update gate: the same at the second third's sum. -/
theorem v31_at (i : Fin 65536) (j : Fin 512) :
    val_main_v31 (F := Ideal) x0 x1 x2 x3 x4 x5 x6 (ix2 i j)
      = Cert.Spec.update (Cert.Spec.stateRow x0 i) (Cert.Spec.actionRow x1 i) (Cert.Spec.hiddenRow x2 i)
          (Cert.Spec.wInS x3) (Cert.Spec.wInA x3) (Cert.Spec.wHid x4) (Cert.Spec.bIn x5) (Cert.Spec.bHid x6) j := by
  rw [val_main_v31_apply, val_main_v30_apply, val_main_v29_apply, val_main_v28_apply, val_main_v27_apply,
    val_main_v26_apply, val_main_v25_apply, val_main_v13_apply, val_main_v16_apply, idx_v13, idx_v16, v6_at, v11_at]
  exact Cert.Spec.logistic_eq _

/-- The candidate: the hyperbolic tangent of the last third's input part plus the reset gate times its hidden part. -/
theorem v34_at (i : Fin 65536) (j : Fin 512) :
    val_main_v34 (F := Ideal) x0 x1 x2 x3 x4 x5 x6 (ix2 i j)
      = Cert.Spec.cand (Cert.Spec.stateRow x0 i) (Cert.Spec.actionRow x1 i) (Cert.Spec.hiddenRow x2 i)
          (Cert.Spec.wInS x3) (Cert.Spec.wInA x3) (Cert.Spec.wHid x4) (Cert.Spec.bIn x5) (Cert.Spec.bHid x6) j := by
  rw [val_main_v34_apply, val_main_v33_apply, val_main_v32_apply, val_main_v14_apply, val_main_v17_apply,
    idx_v14, idx_v17, v6_at, v11_at, v24_at]
  rfl

/-- The next hidden value: the update gate mixes the candidate with the old hidden value. -/
theorem v39_at (i : Fin 65536) (j : Fin 512) :
    val_main_v39 (F := Ideal) x0 x1 x2 x3 x4 x5 x6 (ix2 i j)
      = Cert.Spec.hiddenAt x0 x1 x2 x3 x4 x5 x6 i j := by
  rw [val_main_v39_apply, val_main_v37_apply, val_main_v38_apply, val_main_v36_apply, val_main_v35_apply,
    v31_at, v34_at, v1_at]
  rfl

/-- The reference's next hidden state (before it is given its leading unit axis) is the specification's. -/
theorem hidden_eq :
    val_main_v39 (F := Ideal) x0 x1 x2 x3 x4 x5 x6 = Cert.Spec.hiddenArr x0 x1 x2 x3 x4 x5 x6 := by
  funext idx
  obtain ⟨i, j, rfl⟩ : ∃ i j, idx = ix2 i j := ⟨_, _, eq_ix2 idx⟩
  rw [v39_at]
  rfl

/-! ## The three dense layers -/

theorem lidx_v41 (i : Fin 65536) (j : Fin 1024) (k : Fin 512) : lidx_main_v41 (ix2 i j) k = ix2 i k :=
  funext fun a => match a with | ⟨0, _⟩ => rfl | ⟨1, _⟩ => rfl
theorem ridx_v41 (i : Fin 65536) (j : Fin 1024) (k : Fin 512) :
    idx_main_v40 (ridx_main_v41 (ix2 i j) k) = ix2 j k :=
  funext fun a => match a with | ⟨0, _⟩ => rfl | ⟨1, _⟩ => rfl
theorem idx_v43 (i : Fin 65536) (j : Fin 1024) : idx_main_v42 (idx_main_v43 (ix2 i j)) = ix1 j :=
  funext fun a => match a with | ⟨0, _⟩ => rfl
theorem lidx_v47 (i : Fin 65536) (j : Fin 1024) (k : Fin 1024) : lidx_main_v47 (ix2 i j) k = ix2 i k :=
  funext fun a => match a with | ⟨0, _⟩ => rfl | ⟨1, _⟩ => rfl
theorem ridx_v47 (i : Fin 65536) (j : Fin 1024) (k : Fin 1024) :
    idx_main_v46 (ridx_main_v47 (ix2 i j) k) = ix2 j k :=
  funext fun a => match a with | ⟨0, _⟩ => rfl | ⟨1, _⟩ => rfl
theorem idx_v49 (i : Fin 65536) (j : Fin 1024) : idx_main_v48 (idx_main_v49 (ix2 i j)) = ix1 j :=
  funext fun a => match a with | ⟨0, _⟩ => rfl
theorem lidx_v53 (i : Fin 65536) (k : Fin 1024) : lidx_main_v53 (ix2 i (0 : Fin 1)) k = ix2 i k :=
  funext fun a => match a with | ⟨0, _⟩ => rfl | ⟨1, _⟩ => rfl
theorem ridx_v53 (i : Fin 65536) (k : Fin 1024) :
    idx_main_v52 (ridx_main_v53 (ix2 i (0 : Fin 1)) k) = ix2 (0 : Fin 1) k :=
  funext fun a => match a with | ⟨0, _⟩ => rfl | ⟨1, _⟩ => rfl
theorem idx_v55 (i : Fin 65536) : idx_main_v54 (idx_main_v55 (ix2 i (0 : Fin 1))) = ix1 (0 : Fin 1) :=
  funext fun a => match a with | ⟨0, _⟩ => rfl

/-- The first layer with its maximum with zero, over the next hidden row. -/
theorem v45_at (i : Fin 65536) (j : Fin 1024) :
    val_main_v45 (F := Ideal) x0 x1 x2 x3 x4 x5 x6 x7 x8 (ix2 i j)
      = Cert.Spec.layer1 (Cert.Spec.w1 x7) (Cert.Spec.b1 x8) (Cert.Spec.hiddenAt x0 x1 x2 x3 x4 x5 x6 i) j := by
  have h41 : val_main_v41 (F := Ideal) x0 x1 x2 x3 x4 x5 x6 x7 (ix2 i j)
      = ∑ q : Fin 512, Cert.Spec.hiddenAt x0 x1 x2 x3 x4 x5 x6 i q * Cert.Spec.w1 x7 q j := by
    rw [val_main_v41_apply]
    refine Finset.sum_congr rfl fun q _ => ?_
    rw [val_main_v40_apply, lidx_v41, ridx_v41, v39_at]
    rfl
  rw [val_main_v45_apply, val_main_v44_apply, h41, val_main_v43_apply, val_main_v42_apply, idx_v43,
    val_main_call0_v0_apply]
  rfl

/-- The second layer with its maximum with zero, over the first layer's row. -/
theorem v51_at (i : Fin 65536) (j : Fin 1024) :
    val_main_v51 (F := Ideal) x0 x1 x2 x3 x4 x5 x6 x7 x8 x9 x10 (ix2 i j)
      = Cert.Spec.layer2 (Cert.Spec.w2 x9) (Cert.Spec.b2 x10)
          (Cert.Spec.layer1 (Cert.Spec.w1 x7) (Cert.Spec.b1 x8) (Cert.Spec.hiddenAt x0 x1 x2 x3 x4 x5 x6 i)) j := by
  have h47 : val_main_v47 (F := Ideal) x0 x1 x2 x3 x4 x5 x6 x7 x8 x9 (ix2 i j)
      = ∑ q : Fin 1024, Cert.Spec.layer1 (Cert.Spec.w1 x7) (Cert.Spec.b1 x8)
          (Cert.Spec.hiddenAt x0 x1 x2 x3 x4 x5 x6 i) q * Cert.Spec.w2 x9 q j := by
    rw [val_main_v47_apply]
    refine Finset.sum_congr rfl fun q _ => ?_
    rw [val_main_v46_apply, lidx_v47, ridx_v47, v45_at]
    rfl
  rw [val_main_v51_apply, val_main_v50_apply, h47, val_main_v49_apply, val_main_v48_apply, idx_v49,
    val_main_call1_v0_apply]
  rfl

/-- The last layer: the network's number for batch row `i`. -/
theorem v56_at (i : Fin 65536) :
    val_main_v56 (F := Ideal) x0 x1 x2 x3 x4 x5 x6 x7 x8 x9 x10 x11 x12 (ix2 i (0 : Fin 1))
      = Cert.Spec.qAt x0 x1 x2 x3 x4 x5 x6 x7 x8 x9 x10 x11 x12 i := by
  have h53 : val_main_v53 (F := Ideal) x0 x1 x2 x3 x4 x5 x6 x7 x8 x9 x10 x11 (ix2 i (0 : Fin 1))
      = ∑ q : Fin 1024, Cert.Spec.layer2 (Cert.Spec.w2 x9) (Cert.Spec.b2 x10)
          (Cert.Spec.layer1 (Cert.Spec.w1 x7) (Cert.Spec.b1 x8) (Cert.Spec.hiddenAt x0 x1 x2 x3 x4 x5 x6 i)) q
            * Cert.Spec.w3 x11 q := by
    rw [val_main_v53_apply]
    refine Finset.sum_congr rfl fun q _ => ?_
    rw [val_main_v52_apply, lidx_v53, ridx_v53, v51_at]
    rfl
  rw [val_main_v56_apply, h53, val_main_v55_apply, val_main_v54_apply, idx_v55]
  rfl

/-- The reference's first result is the specification's array of numbers. -/
theorem q_eq :
    val_main_v56 (F := Ideal) x0 x1 x2 x3 x4 x5 x6 x7 x8 x9 x10 x11 x12
      = Cert.Spec.qArr x0 x1 x2 x3 x4 x5 x6 x7 x8 x9 x10 x11 x12 := by
  funext idx
  obtain ⟨i, z, rfl⟩ : ∃ i z, idx = ix2 i z := ⟨_, _, eq_ix2 idx⟩
  obtain rfl : z = (0 : Fin 1) := Subsingleton.elim _ _
  rw [v56_at]
  rfl

end Cert.ReferenceIdeal.RefValue

end
-- ==== Proof.lean ====
/-
  The certificate's five claims.

  Both programs take a state matrix, an action matrix, a hidden array and the weights and biases of one gated recurrent
  cell and three dense layers, and return the network's number for each of 65536 batch rows and the next hidden array.
  The kernel program prepares transposed weights on the host, splits the input weights at the boundary between state
  and action columns, and runs one pallas_call over 128 blocks of 512 batch rows; the reference joins state and action,
  multiplies whole matrices and spells the logistic function as a quotient. Over the extended reals both results are
  the specification's arrays (Proof/Spec.lean): the kernel's by Proof/KernelArrays.lean over Proof/KernelPayload.lean,
  the reference's by Proof/RefValue.lean. The only law that joins the two sides is that a finite sum over 320 columns is
  the sum over the first 256 plus the sum over the last 64; the precondition is not used. The kernel's idealization
  rewrote nothing, so that claim is trivial. The three frames are the generated frame runs.
-/
import proofs.«131729_j57406532878787_1_alg».proof.Defs
import proofs.«131729_j57406532878787_1_alg».proof.Proof.Gen.Kernel
import proofs.«131729_j57406532878787_1_alg».proof.Proof.Gen.Kernel.Skeleton
import proofs.«131729_j57406532878787_1_alg».proof.Proof.Gen.Kernel.Launch
import proofs.«131729_j57406532878787_1_alg».proof.Proof.Gen.Kernel.Points
import proofs.«131729_j57406532878787_1_alg».proof.Proof.Gen.Kernel.Frame
import proofs.«131729_j57406532878787_1_alg».proof.Proof.Gen.KernelIdeal
import proofs.«131729_j57406532878787_1_alg».proof.Proof.Gen.KernelIdeal.Skeleton
import proofs.«131729_j57406532878787_1_alg».proof.Proof.Gen.KernelIdeal.Launch
import proofs.«131729_j57406532878787_1_alg».proof.Proof.Gen.KernelIdeal.Points
import proofs.«131729_j57406532878787_1_alg».proof.Proof.Gen.KernelIdeal.Frame
import proofs.«131729_j57406532878787_1_alg».proof.Proof.Gen.ReferenceIdeal
import proofs.«131729_j57406532878787_1_alg».proof.Proof.Gen.Pre_finite_inputs
import proofs.«131729_j57406532878787_1_alg».proof.Proof.Gen.ReferenceIdeal.Run
import proofs.«131729_j57406532878787_1_alg».proof.Proof.Gen.ReferenceIdeal.Read
import proofs.«131729_j57406532878787_1_alg».proof.Proof.KernelArrays
import proofs.«131729_j57406532878787_1_alg».proof.Proof.RefValue
import Idealize.ShloMosaic.Adequacy
import Idealize.ShloMosaic.Init

noncomputable section

namespace Cert.Proof

open Idealize.ShloMosaic Idealize.SL.Sem

/-- The word-level kernel program runs and leaves its arguments unchanged: the generated frame run. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged: the generated frame run. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its generated run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the arguments, both programs end with the specification's numbers and the
    specification's next hidden state (with its leading unit axis): equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.qG m c, fun c => Cert.KernelIdeal.Arrays.hiddenOut m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.ReferenceIdeal.Read.val_main_v56_eq, Cert.ReferenceIdeal.RefValue.q_eq, h0, h1, h2, h3, h4, h5, h6, h7, h8, h9, h10, h11, h12]
  · obtain ⟨h0, h1, h2, h3, h4, h5, h6, h7, h8, h9, h10, h11, h12⟩ := hagree c
    rw [Cert.ReferenceIdeal.Read.val_main_v57_eq]
    unfold Cert.ReferenceIdeal.Read.val_main_v57
    rw [Cert.ReferenceIdeal.RefValue.hidden_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
